-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384 : Shape := ⟨2, ![4, 384]⟩
abbrev S2048x384 : Shape := ⟨2, ![2048, 384]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S2048x384 : S_.BroadcastsInDim S2048x384 (![] : Fin 0 → Fin S2048x384.rank)
  reducesTo_S2048x384_S_d0_1 : S2048x384.ReducesTo [0, 1] S_

variable [Facts]

def fn {F : FTy → Type} [FloatOps F] (main_arg0 : IVec S4x384 32) (main_arg1 : IVec S2048x384 32) (main_arg2 : FVec F S4 .f32) : IVec S_ 1 :=
  let main_v0 : FVec F S4 .f32 := Host.absf main_arg2
  let main_cst : FVec F S_ .f32 := constant S_ .f32 0x7F800000#32
  let main_v1 : FVec F S4 .f32 := broadcastInDim S4 ![] bcast_S_S4 main_cst
  let main_v2 : IVec S4 1 := cmpf .olt main_v0 main_v1
  let main_c : IVec S_ 1 := constantI S_ 1 1#1
  let main_v3 : IVec S_ 1 := (fun x v => Host.reduce IntOp.andi x v reducesTo_S4_S_d0 h_S_) main_v2 main_c
  let main_c_0 : IVec S_ 32 := constantI S_ 32 0#32
  let main_v4 : IVec S2048x384 32 := broadcastInDim S2048x384 ![] bcast_S_S2048x384 main_c_0
  let main_v5 : IVec S2048x384 1 := cmpi .sge main_arg1 main_v4
  let main_c_1 : IVec S_ 1 := constantI S_ 1 1#1
  let main_v6 : IVec S_ 1 := (fun x v => Host.reduce IntOp.andi x v reducesTo_S2048x384_S_d0_1 h_S_) main_v5 main_c_1
  let main_v7 : IVec S_ 1 := andi main_v3 main_v6
  main_v7
-- ==== Kernel.lean ====
abbrev S4x384 : Shape := ⟨2, ![4, 384]⟩
abbrev S2048x384 : Shape := ⟨2, ![2048, 384]⟩
abbrev S4 : Shape := ⟨1, ![4]⟩
abbrev S4x2048 : Shape := ⟨2, ![4, 2048]⟩
abbrev S4x1x384 : Shape := ⟨3, ![4, 1, 384]⟩
abbrev S1x2048x384 : Shape := ⟨3, ![1, 2048, 384]⟩
abbrev S4x2048x384 : Shape := ⟨3, ![4, 2048, 384]⟩
abbrev S4x1 : Shape := ⟨2, ![4, 1]⟩
abbrev S384x2048 : Shape := ⟨2, ![384, 2048]⟩
abbrev S4x384x50265 : Shape := ⟨3, ![4, 384, 50265]⟩
abbrev S4x384x128 : Shape := ⟨3, ![4, 384, 128]⟩
abbrev S1x1x128 : Shape := ⟨3, ![1, 1, 128]⟩
abbrev S1x4x2048 : Shape := ⟨3, ![1, 4, 2048]⟩
abbrev S8x4x2048 : Shape := ⟨3, ![8, 4, 2048]⟩
abbrev S8x2048 : Shape := ⟨2, ![8, 2048]⟩
abbrev S8x2048x1 : Shape := ⟨3, ![8, 2048, 1]⟩
abbrev S8x2048x128 : Shape := ⟨3, ![8, 2048, 128]⟩
abbrev S8x4x128 : Shape := ⟨3, ![8, 4, 128]⟩
abbrev S4x8x128 : Shape := ⟨3, ![4, 8, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x384, .i32⟩
  | .hbm, ⟨1, _⟩ => ⟨S2048x384, .i32⟩
  | .hbm, ⟨2, _⟩ => ⟨S4, .f32⟩
  | .hbm, ⟨3, _⟩ => ⟨S4x2048, .f32⟩
  | .hbm, ⟨4, _⟩ => ⟨S384x2048, .i32⟩
  | .hbm, ⟨5, _⟩ => ⟨S4x384x50265, .f32⟩
  | .local _ .vmem, ⟨0, _⟩ => ⟨S2048x384, .i32⟩
  | .local _ .vmem, ⟨1, _⟩ => ⟨S4x384, .i32⟩
  | .local _ .vmem, ⟨2, _⟩ => ⟨S4, .f32⟩
  | .local _ .vmem, ⟨3, _⟩ => ⟨S4x2048, .f32⟩
  | .local _ .vmem, ⟨4, _⟩ => ⟨S384x2048, .i32⟩
  | .local _ .vmem, ⟨5, _⟩ => ⟨S4x2048, .f32⟩
  | .local _ .vmem, ⟨6, _⟩ => ⟨S4x384x128, .f32⟩
  | .local _ .vmem, ⟨7, _⟩ => ⟨S4x384x128, .f32⟩
  | _, _ => ⟨S4x384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![393], ![false]⟩

@[reducible] def k1_t1_loop : Scf.Loop 32 :=
  let c0_i32 : BitVec 32 := 0#32
  let c48_i32 : BitVec 32 := 48#32
  let v10 : BitVec 32 := Scalar.addi c0_i32 c48_i32
  let c1_i32 : BitVec 32 := 1#32
  ⟨c0_i32, v10, c1_i32⟩
def k1_mult1 (k1_t1 : Fin k1_t1_loop.trips) : BitVec 32 :=
  let c0_i32_3 : BitVec 32 := 0#32
  let c0_i32 : BitVec 32 := 0#32
  let c1_i32 : BitVec 32 := 1#32
  let arg4 : BitVec 32 := Scf.iv c0_i32 c1_i32 k1_t1
  let c1_i32_2 : BitVec 32 := 1#32
  let v11 : BitVec 32 := Scalar.muli arg4 c1_i32_2
  let v12 : BitVec 32 := Scalar.addi c0_i32_3 v11
  let c8_i32 : BitVec 32 := 8#32
  let v13 : BitVec 32 := Scalar.muli v12 c8_i32
  v13
def k1_off1 (k1_t1 : Fin k1_t1_loop.trips) : Fin 2 → Nat :=
  let c0_i32_3 : BitVec 32 := 0#32
  let c0_i32 : BitVec 32 := 0#32
  let c1_i32 : BitVec 32 := 1#32
  let arg4 : BitVec 32 := Scf.iv c0_i32 c1_i32 k1_t1
  let c1_i32_2 : BitVec 32 := 1#32
  let v11 : BitVec 32 := Scalar.muli arg4 c1_i32_2
  let v12 : BitVec 32 := Scalar.addi c0_i32_3 v11
  let c8_i32 : BitVec 32 := 8#32
  let v13 : BitVec 32 := Scalar.muli v12 c8_i32
  let v14 : BitVec 32 := v13
  let v15 : Index := Scalar.indexCast v14
  let c0_4 : Index := 0#32
  ![v15.toNat, 0]
def k1_off2 (k1_t1 : Fin k1_t1_loop.trips) : Fin 3 → Nat :=
  let c0_5 : Index := 0#32
  let c0_i32_3 : BitVec 32 := 0#32
  let c0_i32 : BitVec 32 := 0#32
  let c1_i32 : BitVec 32 := 1#32
  let arg4 : BitVec 32 := Scf.iv c0_i32 c1_i32 k1_t1
  let c1_i32_2 : BitVec 32 := 1#32
  let v11 : BitVec 32 := Scalar.muli arg4 c1_i32_2
  let v12 : BitVec 32 := Scalar.addi c0_i32_3 v11
  let c8_i32 : BitVec 32 := 8#32
  let v13 : BitVec 32 := Scalar.muli v12 c8_i32
  let v14 : BitVec 32 := v13
  let v27 : Index := Scalar.indexCast v14
  let c0_6 : Index := 0#32
  ![0, v27.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S384x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x384x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2048x384_S2048x384_0_0 : ∀ a, (![0, 0] : Fin 2 → Nat) a + S2048x384.size a ≤ S2048x384.size a
  h_S2048x384 : 0 < S2048x384.numel
  inb_S4x384_S4x384_0_0 : ∀ a, (![0, 0] : Fin 2 → Nat) a + S4x384.size a ≤ S4x384.size a
  h_S4x384 : 0 < S4x384.numel
  shapeCasts_S4x384_S4x1x384 : S4x384.ShapeCasts S4x1x384
  shapeCasts_S2048x384_S1x2048x384 : S2048x384.ShapeCasts S1x2048x384
  broadcasts_S4x1x384_S4x2048x384 : S4x1x384.Broadcasts S4x2048x384
  broadcasts_S1x2048x384_S4x2048x384 : S1x2048x384.Broadcasts S4x2048x384
  natLt_1_32 : 1 < 32
  reduces_S4x2048x384_S4x2048 : S4x2048x384.Reduces [2] S4x2048
  inb_S4_S4_0 : ∀ a, (![0] : Fin 1 → Nat) a + S4.size a ≤ S4.size a
  h_S4 : 0 < S4.numel
  shapeCasts_S4_S4x1 : S4.ShapeCasts S4x1
  broadcasts_S4x1_S4x2048 : S4x1.Broadcasts S4x2048
  reduces_S4x2048_S4 : S4x2048.Reduces [1] S4
  inb_S4x2048_S4x2048_0_0 : ∀ a, (![0, 0] : Fin 2 → Nat) a + S4x2048.size a ≤ S4x2048.size a
  h_S4x2048 : 0 < S4x2048.numel
  transposes_S2048x384_S384x2048_1_0 : S2048x384.Transposes [1, 0] S384x2048
  iota_S1x1x128_d2_w32 : S1x1x128.Iotas .tc 32 [2]
  shapeCasts_S4x2048_S4x2048 : S4x2048.ShapeCasts S4x2048
  bitsLt_bf16_f32 : FTy.bits .bf16 < FTy.bits .f32
  shapeCasts_S4x2048_S1x4x2048 : S4x2048.ShapeCasts S1x4x2048
  shapeCasts_S1x4x2048_S1x4x2048 : S1x4x2048.ShapeCasts S1x4x2048
  broadcasts_S1x4x2048_S8x4x2048 : S1x4x2048.Broadcasts S8x4x2048
  h_S8x2048 : 0 < S8x2048.numel
  shapeCasts_S8x2048_S8x2048 : S8x2048.ShapeCasts S8x2048
  shapeCasts_S8x2048_S8x2048x1 : S8x2048.ShapeCasts S8x2048x1
  broadcasts_S8x2048x1_S8x2048x128 : S8x2048x1.Broadcasts S8x2048x128
  broadcasts_S1x1x128_S8x2048x128 : S1x1x128.Broadcasts S8x2048x128
  transposes_S8x4x128_p1_0_2_S4x8x128 : S8x4x128.Transposes [1, 0, 2] S4x8x128
  h_S4x8x128 : 0 < S4x8x128.numel
  dot_S8x4x2048_S8x2048x128_S8x4x128_2_1_1_2_0_0_wf : DotDims.WF S8x4x2048 S8x2048x128 S8x4x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S2048x384.size a
  hwx0_0 : ∀ i : grid0.Coords, EltTy.bits .i32 = 32 ∨ (Rect.block (s := S2048x384) S2048x384.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x384.size a ≤ S4x384.size a
  hwx0_1 : ∀ i : grid0.Coords, EltTy.bits .i32 = 32 ∨ (Rect.block (s := S4x384) S4x384.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x2048.size a
  hwx0_3 : ∀ i : grid0.Coords, EltTy.bits .f32 = 32 ∨ (Rect.block (s := S4x2048) S4x2048.size (cc0_transform_3 i) (hinb0_3 i)).WholeWords (EltTy.packing .f32)
  hrank1 : 0 < grid1.rank
  k1_t1_ok : k1_t1_loop.OK
  k1_mult1_dvd : ∀ k1_t1 : Fin k1_t1_loop.trips, 8 ∣ (k1_mult1 k1_t1).toNat
  k1_off1_inb : ∀ k1_t1 : Fin k1_t1_loop.trips, ∀ a, (k1_off1 k1_t1) a + S8x2048.size a ≤ S384x2048.size a
  k1_off2_inb : ∀ k1_t1 : Fin k1_t1_loop.trips, ∀ a, (k1_off2 k1_t1) a + S4x8x128.size a ≤ S4x384x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S384x2048.size a ≤ S384x2048.size a
  hwx1_0 : ∀ i : grid1.Coords, EltTy.bits .i32 = 32 ∨ (Rect.block (s := S384x2048) S384x2048.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x2048.size a ≤ S4x2048.size a
  hwx1_1 : ∀ i : grid1.Coords, EltTy.bits .f32 = 32 ∨ (Rect.block (s := S4x2048) S4x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4x384x128.size a < S4x384x50265.size a
  hwx1_2 : ∀ i : grid1.Coords, EltTy.bits .f32 = 32 ∨ (Rect.unit (s := S4x384x50265) (fun a => cc1_transform_2 i a * S4x384x128.size a) (fun a => (Pipeline.Clip.of (cc1_transform_2 i a) (S4x384x128.size a) (S4x384x50265.size a)).extent (S4x384x128.size a)) fun a => Pipeline.Clip.inb (Pipeline.Clip.ok_of (hstart1_2 i a))).WholeWords (EltTy.packing .f32)
  hwxs1_2 : ∀ i : grid1.Coords, EltTy.bits .f32 = 32 ∨ (Rect.unit (s := S4x384x128) (fun _ => 0) (fun a => (Pipeline.Clip.of (cc1_transform_2 i a) (S4x384x128.size a) (S4x384x50265.size a)).extent (S4x384x128.size a)) fun a => (Nat.zero_add _).trans_le (Pipeline.Clip.extent_le (Pipeline.Clip.ok_of (hstart1_2 i a)))).WholeWords (EltTy.packing .f32)

variable [Facts₀]

def dot_S8x4x2048_S8x2048x128_S8x4x128_2_1_1_2_0_0 : DotDims S8x4x2048 S8x2048x128 S8x4x128 where
  lhsContracting := [2]
  rhsContracting := [1]
  lhsNonContracting := [1]
  rhsNonContracting := [2]
  lhsBatch := [0]
  rhsBatch := [0]
  wf := dot_S8x4x2048_S8x2048x128_S8x4x128_2_1_1_2_0_0_wf

abbrev win0_0 : Pipeline.Window sig grid0 :=
  Pipeline.Window.ofSpec (Memref.whole main_arg1) S2048x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S384x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v2) S4x384x128.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x384 : Shape := ⟨2, ![4, 384]⟩
abbrev S2048x384 : Shape := ⟨2, ![2048, 384]⟩
abbrev S4 : Shape := ⟨1, ![4]⟩
abbrev S2048x1x384 : Shape := ⟨3, ![2048, 1, 384]⟩
abbrev S1x4x384 : Shape := ⟨3, ![1, 4, 384]⟩
abbrev S2048x4x384 : Shape := ⟨3, ![2048, 4, 384]⟩
abbrev S_ : Shape := ⟨0, ![]⟩
abbrev S2048x4 : Shape := ⟨2, ![2048, 4]⟩
abbrev S1x4 : Shape := ⟨2, ![1, 4]⟩
abbrev S384 : Shape := ⟨1, ![384]⟩
abbrev S1x384 : Shape := ⟨2, ![1, 384]⟩
abbrev S4x384x50265 : Shape := ⟨3, ![4, 384, 50265]⟩
abbrev S4x2048 : Shape := ⟨2, ![4, 2048]⟩
abbrev S4x2048x1 : Shape := ⟨3, ![4, 2048, 1]⟩
abbrev S2048x384x1 : Shape := ⟨3, ![2048, 384, 1]⟩
abbrev S2048x384x2 : Shape := ⟨3, ![2048, 384, 2]⟩
abbrev S4x2048x384 : Shape := ⟨3, ![4, 2048, 384]⟩

abbrev nBuf : Space → Nat
  | .hbm => 77
  | .vmem => 0
  | .smem => 0
  | _ => 0

abbrev bufTy : (tb : Table) → Fin (tcTables nBuf tb) → BufTy
  | .hbm, ⟨0, _⟩ => ⟨S4x384, .i32⟩
  | .hbm, ⟨1, _⟩ => ⟨S2048x384, .i32⟩
  | .hbm, ⟨2, _⟩ => ⟨S4, .f32⟩
  | .hbm, ⟨3, _⟩ => ⟨S2048x1x384, .i32⟩
  | .hbm, ⟨4, _⟩ => ⟨S1x4x384, .i32⟩
  | .hbm, ⟨5, _⟩ => ⟨S2048x4x384, .i32⟩
  | .hbm, ⟨6, _⟩ => ⟨S2048x4x384, .i32⟩
  | .hbm, ⟨7, _⟩ => ⟨S2048x4x384, .i1⟩
  | .hbm, ⟨8, _⟩ => ⟨S2048x4x384, .i32⟩
  | .hbm, ⟨9, _⟩ => ⟨S_, .i32⟩
  | .hbm, ⟨10, _⟩ => ⟨S2048x4, .i32⟩
  | .hbm, ⟨11, _⟩ => ⟨S2048x4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S1x4, .f32⟩
  | .hbm, ⟨28, _⟩ => ⟨S2048x4, .f32⟩
  | .hbm, ⟨29, _⟩ => ⟨S2048x4, .f32⟩
  | .hbm, ⟨30, _⟩ => ⟨S_, .f32⟩
  | .hbm, ⟨31, _⟩ => ⟨S2048x4, .f32⟩
  | .hbm, ⟨32, _⟩ => ⟨S2048x4, .f32⟩
  | .hbm, ⟨33, _⟩ => ⟨S1x4, .f32⟩
  | .hbm, ⟨34, _⟩ => ⟨S2048x4, .f32⟩
  | .hbm, ⟨35, _⟩ => ⟨S2048x4, .f32⟩
  | .hbm, ⟨36, _⟩ => ⟨S2048x4, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S1x4, .f32⟩
  | .hbm, ⟨43, _⟩ => ⟨S2048x4, .f32⟩
  | .hbm, ⟨44, _⟩ => ⟨S2048x4, .f32⟩
  | .hbm, ⟨45, _⟩ => ⟨S2048x4, .f32⟩
  | .hbm, ⟨46, _⟩ => ⟨S_, .f32⟩
  | .hbm, ⟨47, _⟩ => ⟨S4, .f32⟩
  | .hbm, ⟨48, _⟩ => ⟨S1x4, .f32⟩
  | .hbm, ⟨49, _⟩ => ⟨S2048x4, .f32⟩
  | .hbm, ⟨50, _⟩ => ⟨S2048x4, .f32⟩
  | .hbm, ⟨51, _⟩ => ⟨S384, .i32⟩
  | .hbm, ⟨52, _⟩ => ⟨S1x384, .i32⟩
  | .hbm, ⟨53, _⟩ => ⟨S2048x384, .i32⟩
  | .hbm, ⟨54, _⟩ => ⟨S_, .f32⟩
  | .hbm, ⟨55, _⟩ => ⟨S4x384x50265, .f32⟩
  | .hbm, ⟨56, _⟩ => ⟨S4x2048, .f32⟩
  | .hbm, ⟨57, _⟩ => ⟨S4x2048x1, .f32⟩
  | .hbm, ⟨58, _⟩ => ⟨S_, .i32⟩
  | .hbm, ⟨59, _⟩ => ⟨S2048x384, .i32⟩
  | .hbm, ⟨60, _⟩ => ⟨S2048x384, .i1⟩
  | .hbm, ⟨61, _⟩ => ⟨S_, .i32⟩
  | .hbm, ⟨62, _⟩ => ⟨S2048x384, .i32⟩
  | .hbm, ⟨63, _⟩ => ⟨S2048x384, .i32⟩
  | .hbm, ⟨64, _⟩ => ⟨S2048x384, .i32⟩
  | .hbm, ⟨65, _⟩ => ⟨S_, .i32⟩
  | .hbm, ⟨66, _⟩ => ⟨S2048x384, .i32⟩
  | .hbm, ⟨67, _⟩ => ⟨S2048x384, .i1⟩
  | .hbm, ⟨68, _⟩ => ⟨S_, .i32⟩
  | .hbm, ⟨69, _⟩ => ⟨S2048x384, .i32⟩
  | .hbm, ⟨70, _⟩ => ⟨S2048x384, .i32⟩
  | .hbm, ⟨71, _⟩ => ⟨S2048x384, .i32⟩
  | .hbm, ⟨72, _⟩ => ⟨S2048x384x1, .i32⟩
  | .hbm, ⟨73, _⟩ => ⟨S2048x384x1, .i32⟩
  | .hbm, ⟨74, _⟩ => ⟨S2048x384x2, .i32⟩
  | .hbm, ⟨75, _⟩ => ⟨S4x2048x384, .f32⟩
  | .hbm, ⟨76, _⟩ => ⟨S4x384x50265, .f32⟩
  | _, _ => ⟨S4x384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_c_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]

class Facts₀ : Prop where
  bcast_S2048x384_S2048x1x384_0_2 : S2048x384.BroadcastsInDim S2048x1x384 (![0, 2] : Fin 2 → Fin S2048x1x384.rank)
  bcast_S4x384_S1x4x384_1_2 : S4x384.BroadcastsInDim S1x4x384 (![1, 2] : Fin 2 → Fin S1x4x384.rank)
  bcast_S2048x1x384_S2048x4x384_0_1_2 : S2048x1x384.BroadcastsInDim S2048x4x384 (![0, 1, 2] : Fin 3 → Fin S2048x4x384.rank)
  bcast_S1x4x384_S2048x4x384_0_1_2 : S1x4x384.BroadcastsInDim S2048x4x384 (![0, 1, 2] : Fin 3 → Fin S2048x4x384.rank)
  natLt_1_32 : 1 < 32
  reducesTo_S2048x4x384_S2048x4_d2 : S2048x4x384.ReducesTo [2] S2048x4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  bcast_S_S2048x4 : S_.BroadcastsInDim S2048x4 (![] : Fin 0 → Fin S2048x4.rank)
  reducesTo_S2048x4_S4_d0 : S2048x4.ReducesTo [0] S4
  bcast_S384_S1x384_1 : S384.BroadcastsInDim S1x384 (![1] : Fin 1 → Fin S1x384.rank)
  bcast_S1x384_S2048x384_0_1 : S1x384.BroadcastsInDim S2048x384 (![0, 1] : Fin 2 → Fin S2048x384.rank)
  bcast_S_S4x384x50265 : S_.BroadcastsInDim S4x384x50265 (![] : Fin 0 → Fin S4x384x50265.rank)
  transposes_S2048x4_S4x2048_1_0 : S2048x4.Transposes [1, 0] S4x2048
  bcast_S4x2048_S4x2048x1_0_1 : S4x2048.BroadcastsInDim S4x2048x1 (![0, 1] : Fin 2 → Fin S4x2048x1.rank)
  bcast_S_S2048x384 : S_.BroadcastsInDim S2048x384 (![] : Fin 0 → Fin S2048x384.rank)
  bcast_S2048x384_S2048x384x1_0_1 : S2048x384.BroadcastsInDim S2048x384x1 (![0, 1] : Fin 2 → Fin S2048x384x1.rank)
  concatenates_S2048x384x1_S2048x384x1_S2048x384x2_d2 : Shape.Concatenates [S2048x384x1, S2048x384x1] S2048x384x2 2
  bcast_S4x2048x1_S4x2048x384_0_1_2 : S4x2048x1.BroadcastsInDim S4x2048x384 (![0, 1, 2] : Fin 3 → Fin S4x2048x384.rank)
  scatter_S4x384x50265_S2048x384x2_S4x2048x384_0_12_12_2_wf : ScatterDims.WF S4x384x50265 S2048x384x2 S4x2048x384 [0] [1, 2] [1, 2] 2

variable [Facts₀]

def scatter_S4x384x50265_S2048x384x2_S4x2048x384_0_12_12_2 : ScatterDims S4x384x50265 S2048x384x2 S4x2048x384 where
  updateWindowDims := [0]
  insertedWindowDims := [1, 2]
  scatterDimsToOperandDims := [1, 2]
  indexVectorDim := 2
  wf := scatter_S4x384x50265_S2048x384x2_S4x2048x384_0_12_12_2_wf

class Facts : Prop extends Facts₀ where

variable [Facts]
-- ==== Proof.Spec.lean ====
/-
  The two programs' common value, written once over the extended reals.

  Row b of the input and row n of the dataset agree at `cnt b n` of the 384 positions. With per-row logarithms
  `logA (t b)` (a position that matches) and `logB (t b)` (one that does not), the log-weight of dataset row n for input
  row b is `cnt · logA + (384 − cnt) · logB`; the weights are its softmax over the 2048 dataset rows, taken the stable way:
  the row's maximum (a fold of `max` from −∞) subtracted, exponentials, their sum, the quotient.
  The result at (b, c, v) is the total weight of the dataset rows whose token at position c is v.
-/
import Idealize.ShloMosaic.PureOps.Ideal
import Idealize.ShloMosaic.Lib.ValueIdx

noncomputable section

namespace Cert.FlowSpec

open Idealize.ShloMosaic Idealize.ShloMosaic.ValueIdx

/-- The dataset's shape [2048, 384], the input's [4, 384], the times' [4], the weights' [4, 2048], the result's [4, 384, 50265]. -/
abbrev SDs : Shape := ⟨2, ![2048, 384]⟩
abbrev SIn : Shape := ⟨2, ![4, 384]⟩
abbrev ST : Shape := ⟨1, ![4]⟩
abbrev SW : Shape := ⟨2, ![4, 2048]⟩
abbrev SOut : Shape := ⟨3, ![4, 384, 50265]⟩

/-- The three float literals both programs carry, kept as their words: 1, the vocabulary size 50265, the context length 384;
    and the word of −∞ both maxima start from. -/
def one : EReal := Ideal.ofBits .f32 0x3F800000#32
def vocabF : EReal := Ideal.ofBits .f32 0x47445900#32
def ctxF : EReal := Ideal.ofBits .f32 0x43C00000#32
def negInf : EReal := Ideal.ofBits .f32 0xFF800000#32

/-- log (t + (1 − t) / 50265): the log-probability of a matching position. -/
def logA (x : EReal) : EReal := Ideal.log (x + Ideal.div (one - x) vocabF)
/-- log ((1 − t) / 50265): the log-probability of a position that does not match. -/
def logB (x : EReal) : EReal := Ideal.log (Ideal.div (one - x) vocabF)

/-- How many of the 384 positions of input row b and dataset row n hold the same token. -/
def cnt (ds : IVec SDs 32) (inp : IVec SIn 32) (b : Fin 4) (n : Fin 2048) : EReal :=
  ∑ c : Fin 384, if inp (ix2 b c) = ds (ix2 n c) then (1 : EReal) else 0

/-- The log-weight of dataset row n for input row b. -/
def logp (ds : IVec SDs 32) (inp : IVec SIn 32) (t : ST.Idx → EReal) (b : Fin 4) (n : Fin 2048) : EReal :=
  cnt ds inp b n * logA (t (ix1 b)) + (ctxF - cnt ds inp b n) * logB (t (ix1 b))

/-- The largest log-weight of input row b: the fold of `max` over the dataset rows from −∞. -/
def rowMax (ds : IVec SDs 32) (inp : IVec SIn 32) (t : ST.Idx → EReal) (b : Fin 4) : EReal :=
  (Finset.univ : Finset (Fin 2048)).fold max negInf (fun n => logp ds inp t b n)

/-- The shifted exponential of a log-weight. -/
def ex (ds : IVec SDs 32) (inp : IVec SIn 32) (t : ST.Idx → EReal) (b : Fin 4) (n : Fin 2048) : EReal :=
  Ideal.exp (logp ds inp t b n - rowMax ds inp t b)

/-- The normaliser of input row b. -/
def rowSum (ds : IVec SDs 32) (inp : IVec SIn 32) (t : ST.Idx → EReal) (b : Fin 4) : EReal :=
  ∑ n : Fin 2048, ex ds inp t b n

/-- The softmax weight of dataset row n for input row b. -/
def wgt (ds : IVec SDs 32) (inp : IVec SIn 32) (t : ST.Idx → EReal) (b : Fin 4) (n : Fin 2048) : EReal :=
  Ideal.div (ex ds inp t b n) (rowSum ds inp t b)

/-- The total weight, for input row b, of the dataset rows whose token at position c is v (the token read as a signed word). -/
def flow (ds : IVec SDs 32) (w : Fin 4 → Fin 2048 → EReal) (b : Fin 4) (c : Fin 384) (v : Fin 50265) : EReal :=
  ∑ n : Fin 2048, if (ds (ix2 n c)).toInt = (v.val : Int) then w b n else 0

/-- The whole result array. -/
def result (ds : IVec SDs 32) (inp : IVec SIn 32) (t : ST.Idx → EReal) : SOut.Idx → EReal :=
  fun i => flow ds (wgt ds inp t) ⟨(i 0).val, (i 0).isLt⟩ ⟨(i 1).val, (i 1).isLt⟩ ⟨(i 2).val, (i 2).isLt⟩

theorem result_ix3 (ds : IVec SDs 32) (inp : IVec SIn 32) (t : ST.Idx → EReal) (b : Fin 4) (c : Fin 384) (v : Fin 50265) :
    result ds inp t (ix3 b c v) = flow ds (wgt ds inp t) b c v := rfl

end Cert.FlowSpec

end
-- ==== Proof.KWeights.lean ====
/-
  The weights kernel's stored value, read at an index: entry (b, n) of what it writes is the softmax weight
  `FlowSpec.wgt` of dataset row n for input row b.

  The body is read in pieces. The match count: the two integer arrays are spread over a common [4, 2048, 384] box,
  compared entry by entry, the one-bit answers read as the numbers 1 and 0 and summed along the last axis. The two
  per-row logarithms are computed on a vector of length 4 and spread along the rows through a column [4, 1]. The
  log-weight is a pointwise expression of those. The row maximum and the row sum reduce the second axis and are
  spread along the rows the same way. Each piece is named and read at an index by its own lemma; the stored value is
  then a pointwise expression of the pieces.
-/
import proofs.«408879_j5617817224099_3_alg».proof.Proof.Gen.KernelIdeal.Skeleton
import proofs.«408879_j5617817224099_3_alg».proof.Proof.Spec
import Idealize.ShloMosaic.PureOps.Ideal.Laws
import Idealize.ShloMosaic.Lib.Pipeline.Value
import Idealize.ShloMosaic.Lib.ValueLayout

noncomputable section

namespace Cert.KernelIdeal.WeightsValue

open Idealize.ShloMosaic Idealize.ShloMosaic.ValueIdx Cert.KernelIdeal Cert.KernelIdeal.Gen

/-! ## Layout: a column, and the spreading of a column or a slab over a box -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A slab `[a, 1, c]` broadcast to `[a, b, c]` reads, at `(p, q, r)`, the slab at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A slab `[1, b, c]` broadcast to `[a, b, c]` reads, at `(p, q, r)`, the slab at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Layout

/-! ## The kernel's vectors, named -/

/-- A per-row value spread along its row: the vector of length 4 as a column `[4, 1]`, broadcast to `[4, 2048]`. -/
def colV (x : FVec Ideal S4 .f32) : FVec Ideal S4x2048 .f32 :=
  broadcastTo S4x2048 (shapeCast S4x1 x shapeCasts_S4_S4x1) broadcasts_S4x1_S4x2048

/-- Entry (b, n, c) is 1 when input row b and dataset row n hold the same token at position c, else 0. -/
def eqV (ds : Vec Ideal S2048x384 .i32) (inp : Vec Ideal S4x384 .i32) : FVec Ideal S4x2048x384 .f32 :=
  sitofp .f32 (extui 32 (cmpi .eq
    (broadcastTo S4x2048x384 (shapeCast S4x1x384 inp shapeCasts_S4x384_S4x1x384) broadcasts_S4x1x384_S4x2048x384)
    (broadcastTo S4x2048x384 (shapeCast S1x2048x384 ds shapeCasts_S2048x384_S1x2048x384) broadcasts_S1x2048x384_S4x2048x384))
    natLt_1_32)

/-- The match counts: the sum of `eqV` along the positions. -/
def cntV (ds : Vec Ideal S2048x384 .i32) (inp : Vec Ideal S4x384 .i32) : FVec Ideal S4x2048 .f32 :=
  multiReduction (F := Ideal) .add [2] S4x2048 (eqV ds inp) 0x00000000#32 reduces_S4x2048x384_S4x2048 (.inl rfl) rfl

/-- The per-row logarithm of a matching position. -/
def logAV (t : Vec Ideal S4 .f32) : FVec Ideal S4 .f32 :=
  log (addf t (divf (subf (broadcast S4 (Scalar.ofBits (F := Ideal) .f32 0x3F800000#32)) t)
    (broadcast S4 (Scalar.ofBits (F := Ideal) .f32 0x47445900#32))))

/-- The per-row logarithm of a position that does not match. -/
def logBV (t : Vec Ideal S4 .f32) : FVec Ideal S4 .f32 :=
  log (divf (subf (broadcast S4 (Scalar.ofBits (F := Ideal) .f32 0x3F800000#32)) t)
    (broadcast S4 (Scalar.ofBits (F := Ideal) .f32 0x47445900#32)))

/-- The log-weights. -/
def logpV (ds : Vec Ideal S2048x384 .i32) (inp : Vec Ideal S4x384 .i32) (t : Vec Ideal S4 .f32) : FVec Ideal S4x2048 .f32 :=
  addf (mulf (cntV ds inp) (colV (logAV t)))
    (mulf (subf (broadcast S4x2048 (Scalar.ofBits (F := Ideal) .f32 0x43C00000#32)) (cntV ds inp)) (colV (logBV t)))

/-- The row maxima of the log-weights. -/
def maxV (ds : Vec Ideal S2048x384 .i32) (inp : Vec Ideal S4x384 .i32) (t : Vec Ideal S4 .f32) : FVec Ideal S4 .f32 :=
  multiReduction (F := Ideal) .maximumf [1] S4 (logpV ds inp t) 0xFF800000#32 reduces_S4x2048_S4 (.inl rfl) rfl

/-- The shifted exponentials. -/
def exV (ds : Vec Ideal S2048x384 .i32) (inp : Vec Ideal S4x384 .i32) (t : Vec Ideal S4 .f32) : FVec Ideal S4x2048 .f32 :=
  exp (subf (logpV ds inp t) (colV (maxV ds inp t)))

/-- The row sums of the shifted exponentials. -/
def sumV (ds : Vec Ideal S2048x384 .i32) (inp : Vec Ideal S4x384 .i32) (t : Vec Ideal S4 .f32) : FVec Ideal S4 .f32 :=
  multiReduction (F := Ideal) .add [1] S4 (exV ds inp t) 0x00000000#32 reduces_S4x2048_S4 (.inl rfl) rfl

/-- The stored value is the quotient of the shifted exponentials by their row sums. -/
theorem k0_pay1_eq (ds : Vec Ideal S2048x384 .i32) (inp : Vec Ideal S4x384 .i32) (t : Vec Ideal S4 .f32) :
    k0_pay1 (F := Ideal) ds inp t = divf (exV ds inp t) (colV (sumV ds inp t)) := rfl

/-! ## The pieces read at an index -/

/-- The spread of a per-row value reads, at (b, n), the value of row b. -/
theorem colV_apply (x : FVec Ideal S4 .f32) (b : Fin 4) (n : Fin 2048) : colV x (ix2 b n) = x (ix1 b) :=
  (broadcastTo_a1_ab_apply _ broadcasts_S4x1_S4x2048 b n).trans (shapeCast_a_a1_apply x shapeCasts_S4_S4x1 b 0)

/-- The one-bit answer of an equality test, widened to 32 bits and read as a signed number, is 1 or 0. -/
theorem eqWord (x y : BitVec 32) :
    (FloatOps.sitofp (F := Ideal) .f32 ((IntOp.cmpi .eq x y).setWidth 32) : EReal) = if x = y then (1 : EReal) else 0 := by
  show ((((IntOp.cmpi .eq x y).setWidth 32).toInt : ℝ) : EReal) = _
  by_cases h : x = y
  · have hc : IntOp.cmpi .eq x y = 1#1 := by subst h; simp [IntOp.cmpi]
    rw [if_pos h, hc]
    have : ((1#1 : BitVec 1).setWidth 32).toInt = 1 := by decide
    rw [this]; simp
  · have hb : (x == y) = false := beq_eq_false_iff_ne.mpr h
    have hc : IntOp.cmpi .eq x y = 0#1 := by simp [IntOp.cmpi, hb]
    rw [if_neg h, hc]
    have : ((0#1 : BitVec 1).setWidth 32).toInt = 0 := by decide
    rw [this]; simp

/-- Entry (b, n, c) of the comparison, as a number. -/
theorem eqV_apply (ds : Vec Ideal S2048x384 .i32) (inp : Vec Ideal S4x384 .i32) (b : Fin 4) (n : Fin 2048) (c : Fin 384) :
    eqV ds inp (ix3 b n c) = if inp (ix2 b c) = ds (ix2 n c) then (1 : EReal) else 0 := by
  have h1 : broadcastTo S4x2048x384 (shapeCast S4x1x384 inp shapeCasts_S4x384_S4x1x384) broadcasts_S4x1x384_S4x2048x384 (ix3 b n c)
      = inp (ix2 b c) :=
    (broadcastTo_a1c_abc_apply _ broadcasts_S4x1x384_S4x2048x384 b n c).trans
      (shapeCast_ab_a1b_apply inp shapeCasts_S4x384_S4x1x384 b 0 c)
  have h2 : broadcastTo S4x2048x384 (shapeCast S1x2048x384 ds shapeCasts_S2048x384_S1x2048x384) broadcasts_S1x2048x384_S4x2048x384 (ix3 b n c)
      = ds (ix2 n c) :=
    (broadcastTo_1bc_abc_apply _ broadcasts_S1x2048x384_S4x2048x384 b n c).trans
      (shapeCast_ab_1ab_apply ds shapeCasts_S2048x384_S1x2048x384 0 n c)
  show FloatOps.sitofp (F := Ideal) .f32 ((IntOp.cmpi .eq
      (broadcastTo S4x2048x384 (shapeCast S4x1x384 inp shapeCasts_S4x384_S4x1x384) broadcasts_S4x1x384_S4x2048x384 (ix3 b n c))
      (broadcastTo S4x2048x384 (shapeCast S1x2048x384 ds shapeCasts_S2048x384_S1x2048x384) broadcasts_S1x2048x384_S4x2048x384 (ix3 b n c))).setWidth 32) = _
  rw [h1, h2]
  exact eqWord _ _

/-- The index over (b, n) with position c put on the summed axis is (b, n, c). -/
theorem lift3 (b : Fin 4) (n : Fin 2048) (c : Fin 384) :
    reduces_S4x2048x384_S4x2048.lift (ix2 b n) c = ix3 b n c := by
  funext a; match a with | ⟨0, _⟩ => rfl | ⟨1, _⟩ => rfl | ⟨2, _⟩ => rfl

/-- The index over row b with dataset row n put on the reduced axis is (b, n). -/
theorem lift2 (b : Fin 4) (n : Fin 2048) : reduces_S4x2048_S4.lift (ix1 b) n = ix2 b n := by
  funext a; match a with | ⟨0, _⟩ => rfl | ⟨1, _⟩ => rfl

/-- Entry (b, n) of the count vector is the number of positions at which input row b and dataset row n agree. -/
theorem cntV_apply (ds : Vec Ideal S2048x384 .i32) (inp : Vec Ideal S4x384 .i32) (b : Fin 4) (n : Fin 2048) :
    cntV ds inp (ix2 b n) = Cert.FlowSpec.cnt ds inp b n := by
  unfold cntV Cert.FlowSpec.cnt
  refine (Ideal.multiReduction_add_single (eqV ds inp) 0x00000000#32 reduces_S4x2048x384_S4x2048 (.inl rfl) rfl (ix2 b n)).trans ?_
  exact Finset.sum_congr rfl fun c _ => (congrArg (eqV ds inp) (lift3 b n c)).trans (eqV_apply ds inp b n c)

/-- Entry b of the first logarithm. -/
theorem logAV_apply (t : Vec Ideal S4 .f32) (b : Fin 4) : logAV t (ix1 b) = Cert.FlowSpec.logA (t (ix1 b)) := rfl

/-- Entry b of the second logarithm. -/
theorem logBV_apply (t : Vec Ideal S4 .f32) (b : Fin 4) : logBV t (ix1 b) = Cert.FlowSpec.logB (t (ix1 b)) := rfl

/-- Entry (b, n) of the log-weights. -/
theorem logpV_apply (ds : Vec Ideal S2048x384 .i32) (inp : Vec Ideal S4x384 .i32) (t : Vec Ideal S4 .f32) (b : Fin 4) (n : Fin 2048) :
    logpV ds inp t (ix2 b n) = Cert.FlowSpec.logp ds inp t b n := by
  unfold logpV Cert.FlowSpec.logp
  rw [addf_apply, mulf_apply, mulf_apply, subf_apply, broadcast_apply, colV_apply, colV_apply, cntV_apply, logAV_apply,
    logBV_apply]
  rfl

/-- Entry b of the row maxima: the fold of `max` over the dataset rows from the word of −∞. -/
theorem maxV_apply (ds : Vec Ideal S2048x384 .i32) (inp : Vec Ideal S4x384 .i32) (t : Vec Ideal S4 .f32) (b : Fin 4) :
    maxV ds inp t (ix1 b) = Cert.FlowSpec.rowMax ds inp t b := by
  unfold maxV Cert.FlowSpec.rowMax
  refine (Ideal.multiReduction_maximumf_single (logpV ds inp t) 0xFF800000#32 reduces_S4x2048_S4 (.inl rfl) rfl (ix1 b)).trans ?_
  have hf : (logpV ds inp t ∘ reduces_S4x2048_S4.lift (ix1 b)) = fun n : Fin 2048 => Cert.FlowSpec.logp ds inp t b n :=
    funext fun n => (congrArg (logpV ds inp t) (lift2 b n)).trans (logpV_apply ds inp t b n)
  exact congrArg (fun f : Fin 2048 → EReal => (Finset.univ : Finset (Fin 2048)).fold max (Ideal.ofBits .f32 0xFF800000#32) f) hf

/-- Entry (b, n) of the shifted exponentials. -/
theorem exV_apply (ds : Vec Ideal S2048x384 .i32) (inp : Vec Ideal S4x384 .i32) (t : Vec Ideal S4 .f32) (b : Fin 4) (n : Fin 2048) :
    exV ds inp t (ix2 b n) = Cert.FlowSpec.ex ds inp t b n := by
  unfold exV Cert.FlowSpec.ex
  show Ideal.exp (logpV ds inp t (ix2 b n) - colV (maxV ds inp t) (ix2 b n)) = _
  rw [colV_apply, maxV_apply, logpV_apply]

/-- Entry b of the row sums. -/
theorem sumV_apply (ds : Vec Ideal S2048x384 .i32) (inp : Vec Ideal S4x384 .i32) (t : Vec Ideal S4 .f32) (b : Fin 4) :
    sumV ds inp t (ix1 b) = Cert.FlowSpec.rowSum ds inp t b := by
  unfold sumV Cert.FlowSpec.rowSum
  refine (Ideal.multiReduction_add_single (exV ds inp t) 0x00000000#32 reduces_S4x2048_S4 (.inl rfl) rfl (ix1 b)).trans ?_
  exact Finset.sum_congr rfl fun n _ => (congrArg (exV ds inp t) (lift2 b n)).trans (exV_apply ds inp t b n)

/-- Entry (b, n) of the weights kernel's stored vector is the softmax weight of dataset row n for input row b. -/
theorem k0_pay1_apply (ds : Vec Ideal S2048x384 .i32) (inp : Vec Ideal S4x384 .i32) (t : Vec Ideal S4 .f32) (b : Fin 4) (n : Fin 2048) :
    k0_pay1 (F := Ideal) ds inp t (ix2 b n) = Cert.FlowSpec.wgt ds inp t b n := by
  rw [k0_pay1_eq]
  unfold Cert.FlowSpec.wgt
  rw [divf_apply, colV_apply, sumV_apply, exV_apply]

end Cert.KernelIdeal.WeightsValue

end
-- ==== Proof.KTrip.lean ====
/-
  One trip of the scatter kernel's loop, read at an index: entry (b, r, l) of the block it stores is the total weight
  of the dataset rows whose token in row r of the loaded chunk is the vocabulary id 128 · (grid coordinate) + l.
-/
import proofs.«408879_j5617817224099_3_alg».proof.Proof.Gen.KernelIdeal.Skeleton
import proofs.«408879_j5617817224099_3_alg».proof.Proof.Spec
import Idealize.ShloMosaic.PureOps.Ideal.Laws
import Idealize.ShloMosaic.Lib.Pipeline.Value

noncomputable section

namespace Cert.KernelIdeal.TripValue

open Idealize.ShloMosaic Idealize.ShloMosaic.ValueIdx Cert.KernelIdeal Cert.KernelIdeal.Gen

/-- The word test: with k below 393 and l below 128 the word k · 128 + l does not wrap and is non-negative, so a word
    equals it exactly when its signed reading is the natural number 128 · k + l. -/
private theorem word_eq_iff (k l : Nat) (hk : k < 393) (hl : l < 128) (a : BitVec 32) :
    a = BitVec.ofNat 32 k * 128#32 + BitVec.ofNat 32 l ↔ a.toInt = ((128 * k + l : Nat) : Int) := by
  have e : BitVec.ofNat 32 k * 128#32 + BitVec.ofNat 32 l = BitVec.ofNat 32 (128 * k + l) := by
    apply BitVec.eq_of_toNat_eq
    simp only [BitVec.toNat_add, BitVec.toNat_mul, BitVec.toNat_ofNat]
    omega
  have hn : (BitVec.ofNat 32 (128 * k + l)).toNat = 128 * k + l := by
    rw [BitVec.toNat_ofNat]; omega
  have hc : (BitVec.ofNat 32 (128 * k + l)).toInt = ((128 * k + l : Nat) : Int) := by
    rw [BitVec.toInt_eq_toNat_of_lt (by rw [hn]; omega), hn]
  rw [e, ← hc]
  exact BitVec.toInt_inj.symm

/-! ## The batched product's operand indices, axis by axis

The dot has batch axis 0 on both operands, the left operand's free axis 1, the right operand's free axis 2, and contracts
the left operand's axis 2 with the right operand's axis 1. A result index is (batch, left free, right free). -/

/-- The left operand's batch coordinate is the result's coordinate 0. -/
private theorem lhs_ax0 (j : S8x4x128.Idx) (q : dot_S8x4x2048_S8x2048x128_S8x4x128_2_1_1_2_0_0.contr.Idx) :
    (dot_S8x4x2048_S8x2048x128_S8x4x128_2_1_1_2_0_0.lhsIdx j q 0).val = (j 0).val := by
  unfold DotDims.lhsIdx
  rw [dif_pos (show (0 : Fin S8x4x2048.rank) ∈ dot_S8x4x2048_S8x2048x128_S8x4x128_2_1_1_2_0_0.lhsBatch by decide)]
  rfl

/-- The left operand's free coordinate is the result's coordinate 1. -/
private theorem lhs_ax1 (j : S8x4x128.Idx) (q : dot_S8x4x2048_S8x2048x128_S8x4x128_2_1_1_2_0_0.contr.Idx) :
    (dot_S8x4x2048_S8x2048x128_S8x4x128_2_1_1_2_0_0.lhsIdx j q 1).val = (j 1).val := by
  unfold DotDims.lhsIdx
  rw [dif_neg (show ¬(1 : Fin S8x4x2048.rank) ∈ dot_S8x4x2048_S8x2048x128_S8x4x128_2_1_1_2_0_0.lhsBatch by decide),
    dif_pos (show (1 : Fin S8x4x2048.rank) ∈ dot_S8x4x2048_S8x2048x128_S8x4x128_2_1_1_2_0_0.lhsNonContracting by decide)]
  rfl

/-- The left operand's contracted coordinate is the contraction index's one coordinate. -/
private theorem lhs_ax2 (j : S8x4x128.Idx) (q : dot_S8x4x2048_S8x2048x128_S8x4x128_2_1_1_2_0_0.contr.Idx) :
    (dot_S8x4x2048_S8x2048x128_S8x4x128_2_1_1_2_0_0.lhsIdx j q 2).val = (q ⟨0, by decide⟩).val :=
  dot_S8x4x2048_S8x2048x128_S8x4x128_2_1_1_2_0_0.lhsIdx_val_of_single rfl j q

/-- The right operand's batch coordinate is the result's coordinate 0. -/
private theorem rhs_ax0 (j : S8x4x128.Idx) (q : dot_S8x4x2048_S8x2048x128_S8x4x128_2_1_1_2_0_0.contr.Idx) :
    (dot_S8x4x2048_S8x2048x128_S8x4x128_2_1_1_2_0_0.rhsIdx j q 0).val = (j 0).val := by
  unfold DotDims.rhsIdx
  rw [dif_pos (show (0 : Fin S8x2048x128.rank) ∈ dot_S8x4x2048_S8x2048x128_S8x4x128_2_1_1_2_0_0.rhsBatch by decide)]
  rfl

/-- The right operand's contracted coordinate is the contraction index's one coordinate. -/
private theorem rhs_ax1 (j : S8x4x128.Idx) (q : dot_S8x4x2048_S8x2048x128_S8x4x128_2_1_1_2_0_0.contr.Idx) :
    (dot_S8x4x2048_S8x2048x128_S8x4x128_2_1_1_2_0_0.rhsIdx j q 1).val = (q ⟨0, by decide⟩).val :=
  dot_S8x4x2048_S8x2048x128_S8x4x128_2_1_1_2_0_0.rhsIdx_val_of_single rfl j q

/-- The right operand's free coordinate is the result's coordinate 2. -/
private theorem rhs_ax2 (j : S8x4x128.Idx) (q : dot_S8x4x2048_S8x2048x128_S8x4x128_2_1_1_2_0_0.contr.Idx) :
    (dot_S8x4x2048_S8x2048x128_S8x4x128_2_1_1_2_0_0.rhsIdx j q 2).val = (j 2).val := by
  unfold DotDims.rhsIdx
  rw [dif_neg (show ¬(2 : Fin S8x2048x128.rank) ∈ dot_S8x4x2048_S8x2048x128_S8x4x128_2_1_1_2_0_0.rhsBatch by decide),
    dif_pos (show (2 : Fin S8x2048x128.rank) ∈ dot_S8x4x2048_S8x2048x128_S8x4x128_2_1_1_2_0_0.rhsNonContracting by decide)]
  rfl

/-- The batched product with a zero accumulator, read at (r, b, l): the sum over the 2048 contracted positions n of the
    left operand at (r, b, n) times the right operand at (r, n, l). -/
private theorem dot_apply {φ₁ φ₂ : FTy} (lhs : FVec Ideal S8x4x2048 φ₁) (rhs : FVec Ideal S8x2048x128 φ₂)
    (r : Fin 8) (b : Fin 4) (l : Fin 128) :
    matmul (F := Ideal) dot_S8x4x2048_S8x2048x128_S8x4x128_2_1_1_2_0_0 none lhs rhs
        (constant (F := Ideal) S8x4x128 .f32 0x00000000#32) (ix3 r b l)
      = ∑ n : Fin 2048, lhs (ix3 r b n) * rhs (ix3 r n l) := by
  simp only [matmul]
  rw [Ideal.matmul_constant_zero_apply,
    ← Equiv.sum_comp (contrEquiv1 dot_S8x4x2048_S8x2048x128_S8x4x128_2_1_1_2_0_0 2048 rfl rfl).symm]
  refine Finset.sum_congr rfl fun n _ => ?_
  have hn := contrEquiv1_symm_val dot_S8x4x2048_S8x2048x128_S8x4x128_2_1_1_2_0_0 2048 rfl rfl n
  have el : dot_S8x4x2048_S8x2048x128_S8x4x128_2_1_1_2_0_0.lhsIdx (ix3 r b l)
      ((contrEquiv1 dot_S8x4x2048_S8x2048x128_S8x4x128_2_1_1_2_0_0 2048 rfl rfl).symm n) = ix3 r b n :=
    funext fun a => Fin.ext (by
      match a with
      | ⟨0, _⟩ => exact lhs_ax0 _ _
      | ⟨1, _⟩ => exact lhs_ax1 _ _
      | ⟨2, _⟩ => exact (lhs_ax2 _ _).trans hn)
  have er : dot_S8x4x2048_S8x2048x128_S8x4x128_2_1_1_2_0_0.rhsIdx (ix3 r b l)
      ((contrEquiv1 dot_S8x4x2048_S8x2048x128_S8x4x128_2_1_1_2_0_0 2048 rfl rfl).symm n) = ix3 r n l :=
    funext fun a => Fin.ext (by
      match a with
      | ⟨0, _⟩ => exact rhs_ax0 _ _
      | ⟨1, _⟩ => exact (rhs_ax1 _ _).trans hn
      | ⟨2, _⟩ => exact rhs_ax2 _ _)
  rw [el, er]

/-- The left operand at (r, b, n): the weights, narrowed (the identity on extended reals), given a leading unit axis
    and repeated along the 8 chunk rows, read w (b, n). -/
private theorem lhs_read (w : Vec Ideal S4x2048 .f32) (r : Fin 8) (b : Fin 4) (n : Fin 2048) :
    broadcastTo S8x4x2048
        (shapeCast S1x4x2048
          (shapeCast S1x4x2048
            (truncf (F := Ideal) FTy.bf16 (shapeCast S4x2048 w shapeCasts_S4x2048_S4x2048) bitsLt_bf16_f32)
            shapeCasts_S4x2048_S1x4x2048)
          shapeCasts_S1x4x2048_S1x4x2048)
        broadcasts_S1x4x2048_S8x4x2048 (ix3 r b n) = w (ix2 b n) := by
  refine (broadcastTo_apply _ _ (ix3 r b n) (ix3 (0 : Fin 1) b n) ?_).trans ?_
  · intro a
    match a with
    | ⟨0, _⟩ => rfl
    | ⟨1, _⟩ => rfl
    | ⟨2, _⟩ => rfl
  rw [shapeCast_self]
  refine (shapeCast_apply _ _ (ix3 (0 : Fin 1) b n) (ix2 b n) ?_).trans ?_
  · rw [Shape.rowMajor_val_two, Shape.rowMajor_val_three]
    show b.val * 2048 + n.val = (0 * 4 + b.val) * 2048 + n.val
    omega
  rw [shapeCast_self]
  rfl

/-- The right operand at (r, n, l): the indicator, as the extended real 1 or 0, that the chunk's token at (r, n), read
    as a signed word, is the vocabulary id 128 · (grid coordinate) + l. -/
private theorem rhs_read (i : grid1.Coords) (chunk : Vec Ideal S8x2048 .i32) (r : Fin 8) (n : Fin 2048) (l : Fin 128) :
    truncf (F := Ideal) FTy.bf16
        (sitofp FTy.f32
          (extui 32
            (cmpi CmpIPredicate.eq
              (broadcastTo S8x2048x128
                (shapeCast S8x2048x1 (shapeCast S8x2048 chunk shapeCasts_S8x2048_S8x2048) shapeCasts_S8x2048_S8x2048x1)
                broadcasts_S8x2048x1_S8x2048x128)
              (broadcastTo S8x2048x128
                (addi (broadcast S1x1x128 (Scalar.muli (BitVec.ofNat 32 (i 0).val) 128#32))
                  (iota Kind.tc S1x1x128 32 [2] iota_S1x1x128_d2_w32))
                broadcasts_S1x1x128_S8x2048x128))
            natLt_1_32))
        bitsLt_bf16_f32 (ix3 r n l)
      = if (chunk (ix2 r n)).toInt = ((128 * (i 0).val + l.val : Nat) : Int) then (1 : EReal) else 0 := by
  -- the token, repeated along the 128 lanes
  have ha : broadcastTo S8x2048x128
      (shapeCast S8x2048x1 (shapeCast S8x2048 chunk shapeCasts_S8x2048_S8x2048) shapeCasts_S8x2048_S8x2048x1)
      broadcasts_S8x2048x1_S8x2048x128 (ix3 r n l) = chunk (ix2 r n) := by
    refine (broadcastTo_apply _ _ (ix3 r n l) (ix3 r n (0 : Fin 1)) ?_).trans ?_
    · intro a
      match a with
      | ⟨0, _⟩ => rfl
      | ⟨1, _⟩ => rfl
      | ⟨2, _⟩ => rfl
    refine (shapeCast_apply _ _ (ix3 r n (0 : Fin 1)) (ix2 r n) ?_).trans ?_
    · rw [Shape.rowMajor_val_two, Shape.rowMajor_val_three]
      show r.val * 2048 + n.val = (r.val * 2048 + n.val) * 1 + 0
      omega
    rw [shapeCast_self]
  -- the tile's vocabulary id at lane l, repeated along the rows and the dataset positions
  have hc : broadcastTo S8x2048x128
      (addi (broadcast S1x1x128 (Scalar.muli (BitVec.ofNat 32 (i 0).val) 128#32))
        (iota Kind.tc S1x1x128 32 [2] iota_S1x1x128_d2_w32))
      broadcasts_S1x1x128_S8x2048x128 (ix3 r n l)
        = BitVec.ofNat 32 (i 0).val * 128#32 + BitVec.ofNat 32 l.val := by
    refine (broadcastTo_apply _ _ (ix3 r n l) (ix3 (0 : Fin 1) (0 : Fin 1) l) ?_).trans ?_
    · intro a
      match a with
      | ⟨0, _⟩ => rfl
      | ⟨1, _⟩ => rfl
      | ⟨2, _⟩ => rfl
    show IntOp.addi (Scalar.muli (BitVec.ofNat 32 (i 0).val) 128#32)
      (iota Kind.tc S1x1x128 32 [2] iota_S1x1x128_d2_w32 (ix3 (0 : Fin 1) (0 : Fin 1) l)) = _
    rw [iota_single_apply]
    rfl
  show ((((IntOp.cmpi CmpIPredicate.eq
      (broadcastTo S8x2048x128
        (shapeCast S8x2048x1 (shapeCast S8x2048 chunk shapeCasts_S8x2048_S8x2048) shapeCasts_S8x2048_S8x2048x1)
        broadcasts_S8x2048x1_S8x2048x128 (ix3 r n l))
      (broadcastTo S8x2048x128
        (addi (broadcast S1x1x128 (Scalar.muli (BitVec.ofNat 32 (i 0).val) 128#32))
          (iota Kind.tc S1x1x128 32 [2] iota_S1x1x128_d2_w32))
        broadcasts_S1x1x128_S8x2048x128 (ix3 r n l))).setWidth 32).toInt : ℝ) : EReal) = _
  rw [ha, hc]
  have hk : (i 0).val < 393 := (i 0).isLt
  by_cases h : chunk (ix2 r n) = BitVec.ofNat 32 (i 0).val * 128#32 + BitVec.ofNat 32 l.val
  · rw [if_pos ((word_eq_iff _ _ hk l.isLt _).mp h)]
    have hb : IntOp.cmpi CmpIPredicate.eq (chunk (ix2 r n)) (BitVec.ofNat 32 (i 0).val * 128#32 + BitVec.ofNat 32 l.val) = 1#1 := by
      simp only [IntOp.cmpi, h, beq_self_eq_true, BitVec.ofBool_true]
      rfl
    rw [hb]
    norm_num
  · rw [if_neg (fun h' => h ((word_eq_iff _ _ hk l.isLt _).mpr h'))]
    have hb : IntOp.cmpi CmpIPredicate.eq (chunk (ix2 r n)) (BitVec.ofNat 32 (i 0).val * 128#32 + BitVec.ofNat 32 l.val) = 0#1 := by
      simp only [IntOp.cmpi, beq_eq_false_iff_ne.mpr h, BitVec.ofBool_false]
      rfl
    rw [hb]
    norm_num

/-- Entry (b, r, l) of a trip's stored block: the weights of input row b summed over the dataset rows n whose token at row r
    of the chunk, read as a signed word, is 128 · i + l. -/
theorem k1_pay1_apply (i : grid1.Coords) (w : Vec Ideal S4x2048 .f32) (chunk : Vec Ideal S8x2048 .i32) (b : Fin 4) (r : Fin 8) (l : Fin 128) :
    k1_pay1 (F := Ideal) i w chunk (ix3 b r l)
      = ∑ n : Fin 2048, if (chunk (ix2 r n)).toInt = ((128 * (i 0).val + l.val : Nat) : Int) then w (ix2 b n) else 0 := by
  unfold k1_pay1
  -- the transpose reads the product at (r, b, l)
  refine (transpose_apply [1, 0, 2] _ _ (ix3 b r l) (ix3 r b l) ?_).trans ?_
  · intro a
    match a with
    | ⟨0, _⟩ => rfl
    | ⟨1, _⟩ => rfl
    | ⟨2, _⟩ => rfl
  -- the product there is the sum over the dataset rows of weight times indicator
  refine (dot_apply _ _ r b l).trans ?_
  refine Finset.sum_congr rfl fun n _ => ?_
  rw [lhs_read, rhs_read]
  -- in the extended reals x · 1 = x and x · 0 = 0 for every x
  by_cases h : (chunk (ix2 r n)).toInt = ((128 * (i 0).val + l.val : Nat) : Int)
  · rw [if_pos h, if_pos h, mul_one]
  · rw [if_neg h, if_neg h, mul_zero]

end Cert.KernelIdeal.TripValue

end
-- ==== Proof.KRegion1.lean ====
/-
  What the scatter kernel leaves in its output block at a grid point, read at an index: the 48 trips store the
  48 row groups of the block, and entry (b, c, l) is the total weight of the dataset rows whose token at position c is the
  vocabulary id 128 · (the point's coordinate) + l.
-/
import proofs.«408879_j5617817224099_3_alg».proof.Proof.Gen.KernelIdeal.Frame
import proofs.«408879_j5617817224099_3_alg».proof.Proof.KTrip

noncomputable section

namespace Cert.KernelIdeal.Region1Value

open Idealize.ShloMosaic Idealize.ShloMosaic.ValueIdx Idealize.ShloMosaic.TcCoe Idealize.SL.Sem Cert.KernelIdeal Cert.KernelIdeal.Gen
open Idealize.ShloMosaic.Pipeline (Dat Cfg Window)

/-- The block as ONE function of its index: at (b, cc, l), the total weight of the dataset rows whose token at position cc is
    the vocabulary id 128 · (the point's coordinate) + l. -/
private def blockFn (i : grid1.Coords) (x0 : Vec Ideal S384x2048 .i32) (x1 : Vec Ideal S4x2048 .f32) : Vec Ideal S4x384x128 .f32 :=
  fun y => ∑ n : Fin 2048,
    if (x0 (ix2 (⟨(y 1).val, (y 1).isLt⟩ : Fin 384) n)).toInt = ((128 * (i 0).val + (y 2).val : Nat) : Int)
      then x1 (ix2 (⟨(y 0).val, (y 0).isLt⟩ : Fin 4) n) else 0

/-- The run's pieces are the pieces of all the trips, over the weights loaded whole and the dataset block as it stands. -/
private theorem run_pieces (c : Dev nD) (i : grid1.Coords) (arg1 : Memref sig .tc .vmem S384x2048 .i32) (harg1 : arg1.IsWhole) (arg2 : Memref sig .tc .vmem S4x2048 .f32) (harg2 : arg2.IsWhole) (arg3 : Memref sig .tc .vmem S4x384x128 .f32) (harg3 : arg3.IsWhole)
    (x0 : Vec Ideal S384x2048 .i32) (x1 : Vec Ideal S4x2048 .f32) :
    (kernelRun1_A (F := Ideal) c i arg1 harg1 arg2 harg2 arg3 harg3 x0 x1).1
      = pb_k1_t1 (F := Ideal) Variants.none c none i arg1 harg1 arg2 harg2 arg3 harg3
          (View.readAt (Elt Ideal) arg2.view (Rect.unit (s := S4x2048) ![0, 0] S4x2048.size inb_S4x2048_S4x2048_0_0).toLoadRect (harg2.unread x1))
          (harg1.unread x0) k1_t1_loop.trips := by
  unfold kernelRun1_A
  rfl

/-- One trip's pieces: one store, at the trip's row group, of the payload of the chunk loaded at the trip's rows. -/
private theorem trip_pieces (c : Dev nD) (i : grid1.Coords) (arg1 : Memref sig .tc .vmem S384x2048 .i32) (harg1 : arg1.IsWhole) (arg2 : Memref sig .tc .vmem S4x2048 .f32) (harg2 : arg2.IsWhole) (arg3 : Memref sig .tc .vmem S4x384x128 .f32) (harg3 : arg3.IsWhole)
    (v4 : Vec Ideal S4x2048 .f32) (X : BufTy.Contents (Elt Ideal) arg1.view.ty) (k : Fin k1_t1_loop.trips) :
    tripL_k1_t1 (F := Ideal) Variants.none c none i arg1 harg1 arg2 harg2 arg3 harg3 v4 X k
      = [⟨Rect.unit (s := S4x384x128) (k1_off2 k) S4x8x128.size (k1_off2_inb k),
          k1_pay1 (F := Ideal) i v4 (View.readAt (Elt Ideal) arg1.view (Rect.unit (s := S384x2048) (k1_off1 k) S8x2048.size (k1_off1_inb k)).toLoadRect X)⟩] := by
  unfold tripL_k1_t1
  unfold trip_k1_t1
  rfl

/-- The chunk of trip k, read at (r, n), is the dataset block at row 8k + r. -/
private theorem chunk_apply (x0 : Vec Ideal S384x2048 .i32) (k : Fin k1_t1_loop.trips) (r : Fin 8) (n : Fin 2048)
    (h : 8 * k.val + r.val < 384) :
    View.ld x0 (Rect.unit (s := S384x2048) (k1_off1 k) S8x2048.size (k1_off1_inb k)) (ix2 r n)
      = x0 (ix2 (⟨8 * k.val + r.val, h⟩ : Fin 384) n) := by
  show x0 _ = x0 _
  refine congrArg x0 ?_
  funext a
  refine Fin.ext ?_
  rw [LoadRect.idx_apply]
  match a with
  | ⟨0, _⟩ => simp [k1_off1_eq k]
  | ⟨1, _⟩ => simp [k1_off1_eq k]

/-- The row group trip k stores at, embedded in the block: (b, r, l) goes to (b, 8k + r, l). -/
private theorem emb_apply3 (k : Fin k1_t1_loop.trips) (b : Fin 4) (r : Fin 8) (l : Fin 128) (h : 8 * k.val + r.val < 384) :
    (Rect.unit (s := S4x384x128) (k1_off2 k) S4x8x128.size (k1_off2_inb k)).emb (ix3 b r l)
      = ix3 b (⟨8 * k.val + r.val, h⟩ : Fin 384) l := by
  funext a
  refine Fin.ext ?_
  rw [Rect.emb_apply]
  match a with
  | ⟨0, _⟩ => simp [k1_off2_eq k]
  | ⟨1, _⟩ => simp [k1_off2_eq k]
  | ⟨2, _⟩ => simp [k1_off2_eq k]

/-- Trip k's payload is the block of the one function its rectangle names. -/
private theorem trip_piece_block (i : grid1.Coords) (x0 : Vec Ideal S384x2048 .i32) (x1 : Vec Ideal S4x2048 .f32) (k : Fin k1_t1_loop.trips)
    (x : (Rect.unit (s := S4x384x128) (k1_off2 k) S4x8x128.size (k1_off2_inb k)).shape.Idx) :
    k1_pay1 (F := Ideal) i x1 (View.ld x0 (Rect.unit (s := S384x2048) (k1_off1 k) S8x2048.size (k1_off1_inb k))) x
      = blockFn i x0 x1 ((Rect.unit (s := S4x384x128) (k1_off2 k) S4x8x128.size (k1_off2_inb k)).emb x) := by
  have hk : k.val < 48 := Nat.lt_of_lt_of_le k.isLt k1_t1_abs.2.1
  obtain ⟨b, r, l, rfl⟩ : ∃ (b : Fin 4) (r : Fin 8) (l : Fin 128), x = ix3 b r l := ⟨x 0, x 1, x 2, eq_ix3 x⟩
  have h : 8 * k.val + r.val < 384 := by omega
  rw [emb_apply3 k b r l h]
  refine (TripValue.k1_pay1_apply i x1 _ b r l).trans ?_
  refine Finset.sum_congr rfl fun n _ => ?_
  rw [chunk_apply x0 k r n h]

/-- A load of the dataset block's buffer through a rectangle reads the block there. -/
private theorem chunk_read (arg1 : Memref sig .tc .vmem S384x2048 .i32) (harg1 : arg1.IsWhole) (x0 : Vec Ideal S384x2048 .i32) (R : Rect S384x2048) :
    View.readAt (Elt Ideal) arg1.view R.toLoadRect (harg1.unread x0) = View.ld x0 R := by
  rw [View.readAt_eq_ld, harg1.read_unread]

/-- The load of the whole weights buffer reads the weights. -/
private theorem weights_read (arg2 : Memref sig .tc .vmem S4x2048 .f32) (harg2 : arg2.IsWhole) (x1 : Vec Ideal S4x2048 .f32) :
    View.readAt (Elt Ideal) arg2.view (Rect.unit (s := S4x2048) ![0, 0] S4x2048.size inb_S4x2048_S4x2048_0_0).toLoadRect (harg2.unread x1) = x1 := by
  rw [View.readAt_eq_ld, harg2.read_unread]
  exact View.ld_unit_zero (by funext a; match a with | ⟨0, _⟩ => rfl | ⟨1, _⟩ => rfl) _ x1

/-- Every piece of the trips before n is a block of the one function. -/
private theorem pieces_block (c : Dev nD) (i : grid1.Coords) (arg1 : Memref sig .tc .vmem S384x2048 .i32) (harg1 : arg1.IsWhole) (arg2 : Memref sig .tc .vmem S4x2048 .f32) (harg2 : arg2.IsWhole) (arg3 : Memref sig .tc .vmem S4x384x128 .f32) (harg3 : arg3.IsWhole)
    (x0 : Vec Ideal S384x2048 .i32) (x1 : Vec Ideal S4x2048 .f32) :
    ∀ n : ℕ, n ≤ k1_t1_loop.trips →
      ∀ p ∈ pb_k1_t1 (F := Ideal) Variants.none c none i arg1 harg1 arg2 harg2 arg3 harg3 x1 (harg1.unread x0) n,
        ∀ x : p.1.shape.Idx, p.2 x = blockFn i x0 x1 (p.1.emb x)
  | 0, _ => fun p hp => absurd hp List.not_mem_nil
  | n + 1, hn => by
    intro p hp x
    have hlt : n < k1_t1_loop.trips := hn
    have e := pb_k1_t1_succ (F := Ideal) Variants.none c none i arg1 harg1 arg2 harg2 arg3 harg3 x1 (harg1.unread x0) ⟨n, hlt⟩
    have hp' : p ∈ tripL_k1_t1 (F := Ideal) Variants.none c none i arg1 harg1 arg2 harg2 arg3 harg3 x1 (harg1.unread x0) ⟨n, hlt⟩
        ++ pb_k1_t1 (F := Ideal) Variants.none c none i arg1 harg1 arg2 harg2 arg3 harg3 x1 (harg1.unread x0) n :=
      (congrArg (p ∈ ·) e).mp hp
    rw [trip_pieces, chunk_read] at hp'
    rcases List.mem_append.mp hp' with h | h
    · obtain rfl := List.mem_singleton.mp h
      exact trip_piece_block i x0 x1 ⟨n, hlt⟩ x
    · exact pieces_block c i arg1 harg1 arg2 harg2 arg3 harg3 x0 x1 n (Nat.le_of_lt hlt) p h x

/-- What the run leaves in the output block, read at an index, over any staging memrefs and blocks. -/
theorem out1_A_2_apply (c : Dev nD) (i : grid1.Coords) (arg1 : Memref sig .tc .vmem S384x2048 .i32) (harg1 : arg1.IsWhole) (arg2 : Memref sig .tc .vmem S4x2048 .f32) (harg2 : arg2.IsWhole) (arg3 : Memref sig .tc .vmem S4x384x128 .f32) (harg3 : arg3.IsWhole)
    (x0 : Vec Ideal S384x2048 .i32) (x1 : Vec Ideal S4x2048 .f32) (b : Fin 4) (cc : Fin 384) (l : Fin 128) :
    out1_A_2 (F := Ideal) c i arg1 harg1 arg2 harg2 arg3 harg3 x0 x1 (ix3 b cc l)
      = ∑ n : Fin 2048, if (x0 (ix2 cc n)).toInt = ((128 * (i 0).val + l.val : Nat) : Int) then x1 (ix2 b n) else 0 := by
  unfold out1_A_2
  rw [View.read_writes_eq_canon _ _ _ (cover1_A_2 (F := Ideal) c i arg1 harg1 arg2 harg2 arg3 harg3 x0 x1)]
  refine (View.canon_apply_of_pieces (blockFn i x0 x1) _ ?_ (ix3 b cc l)
    (cover1_A_2 (F := Ideal) c i arg1 harg1 arg2 harg2 arg3 harg3 x0 x1 (ix3 b cc l))).trans ?_
  · rw [run_pieces, weights_read]
    exact pieces_block c i arg1 harg1 arg2 harg2 arg3 harg3 x0 x1 _ (Nat.le_refl _)
  · rfl

variable (V : (c : Dev nD) → (b : Ref sig .tc) → Buf (Elt Ideal) ((c : Thread nD τ).loc b))

/-- The transposed dataset and the weights as the region finds them at point t, at their literal types. -/
abbrev dsBlk (c : Dev nD) (t : Fin cfg1.N) : Vec Ideal S384x2048 .i32 := iblk1 V c 0 t
abbrev wBlk (c : Dev nD) (t : Fin cfg1.N) : Vec Ideal S4x2048 .f32 := iblk1 V c 1 t

/-- Entry (b, c, l) of the output block after the body at point t. -/
theorem outsAt1_apply (c : Dev nD) (t : Fin cfg1.N) (b : Fin 4) (cc : Fin 384) (l : Fin 128) :
    outsAt1 (F := Ideal) V c t (ix3 b cc l)
      = ∑ n : Fin 2048, if (dsBlk V c t (ix2 cc n)).toInt = ((128 * (grid1.coords t 0).val + l.val : Nat) : Int)
          then wBlk V c t (ix2 b n) else 0 :=
  out1_A_2_apply c (grid1.coords t) (ms1_0 t) (hs1_0 t) (ms1_1 t) (hs1_1 t) (ms1_2 t) (hs1_2 t) (iblk1 V c 0 t) (iblk1 V c 1 t) b cc l

end Cert.KernelIdeal.Region1Value

end
-- ==== Proof.KArrays.lean ====
/-
  From blocks to arrays. The weights kernel has one grid point whose block is the whole [4, 2048] array. The scatter kernel's
  393 points write the 393 vocabulary tiles of the [4, 384, 50265] result, the last one cut at the array's end; every entry of
  the result lies in exactly one tile.
-/
import proofs.«408879_j5617817224099_3_alg».proof.Proof.Gen.KernelIdeal.Frame
import proofs.«408879_j5617817224099_3_alg».proof.Proof.KRegion1

noncomputable section

namespace Cert.KernelIdeal.ArrayValue

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The transposed dataset and the weights as arrays when the scatter region is entered. -/
abbrev dsTArr (c : Dev nD) : Vec Ideal S384x2048 .i32 := V c (Pipeline.arrRef spec1 0)
abbrev wArr (c : Dev nD) : Vec Ideal S4x2048 .f32 := V c (Pipeline.arrRef spec1 1)

/-! ## The scatter region: 393 points, the dataset and the weights whole at every point, the result in vocabulary tiles -/

/-- The scatter region's index maps at each of its 393 points: the two inputs sit at block index zero; the result's block
    index is (0, 0, t); the point's coordinate is t; the tile at t keeps, of its 128 vocabulary ids, those below 50265. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = t.val
    ∧ (grid1.coords t 0).val = t.val
    ∧ win1_2.xsize (grid1.coords t) (0 : Fin 3) = 4 ∧ win1_2.xsize (grid1.coords t) (1 : Fin 3) = 384
    ∧ win1_2.xsize (grid1.coords t) (2 : Fin 3) = min 128 (50265 - t.val * 128) :=
  (by decide +kernel : ∀ t : Fin grid1.N, _)

/-- A block that is the whole array, read back, is the array: the transposed dataset at every point, -/
theorem whole1_0 (c : Dev nD) (t : Fin cfg1.N) : Region1Value.dsBlk V c t = dsTArr V c := by
  obtain ⟨e0, e1, -⟩ := idx1 t
  funext y
  show V c (Pipeline.arrRef spec1 0) (((cfg1.win 0).blk t).view.emb y) = V c (Pipeline.arrRef spec1 0) y
  refine congrArg _ ?_
  funext a; apply Fin.ext
  match a with
  | ⟨0, _⟩ => show win1_0.index t (0 : Fin 2) * 384 + 1 * (y 0).val = (y 0).val; omega
  | ⟨1, _⟩ => show win1_0.index t (1 : Fin 2) * 2048 + 1 * (y 1).val = (y 1).val; omega

/-- and the weights. -/
theorem whole1_1 (c : Dev nD) (t : Fin cfg1.N) : Region1Value.wBlk V c t = wArr V c := by
  obtain ⟨-, -, e0, e1, -⟩ := idx1 t
  funext y
  show V c (Pipeline.arrRef spec1 1) (((cfg1.win 1).blk t).view.emb y) = V c (Pipeline.arrRef spec1 1) y
  refine congrArg _ ?_
  funext a; apply Fin.ext
  match a with
  | ⟨0, _⟩ => show win1_1.index t (0 : Fin 2) * 4 + 1 * (y 0).val = (y 0).val; omega
  | ⟨1, _⟩ => show win1_1.index t (1 : Fin 2) * 2048 + 1 * (y 1).val = (y 1).val; omega

/-- The total weight, for input row b, of the dataset rows whose token at position c is the vocabulary id v: the result
    array the scatter region builds, as one function of the two arrays it reads. -/
abbrev flowArr (c : Dev nD) : S4x384x50265.Idx → EReal := fun i =>
  ∑ n : Fin 2048, if (dsTArr V c (ix2 ⟨(i 1).val, (i 1).isLt⟩ n)).toInt = ((i 2).val : Int)
    then wArr V c (ix2 ⟨(i 0).val, (i 0).isLt⟩ n) else 0

/-- What point t writes back is tile t of that array: entry (b, c, l) of the block is the entry (b, c, 128 t + l) of the array. -/
theorem flushed1 (c : Dev nD) (t : Fin cfg1.N) :
    (dat1 (F := Ideal) V c).flushed 2 t = ((cfg1.win 2).blk t).view.read (Elt Ideal) (flowArr V c) := by
  show (cfg1.win 2).cut (grid1.coords t) ((dat1 V c).after 2 t) = _
  rw [after1_2]
  obtain ⟨-, -, -, -, e0, e1, e2, eg, -⟩ := idx1 t
  funext y
  show outsAt1 (F := Ideal) V c t (win1_2.xinj (grid1.coords t) y) = flowArr V c (((cfg1.win 2).blk t).view.emb y)
  refine (congrArg (outsAt1 (F := Ideal) V c t) (eq_ix3 (n0 := 4) (n1 := 384) (n2 := 128) (win1_2.xinj (grid1.coords t) y))).trans ?_
  refine (Region1Value.outsAt1_apply V c t _ _ _).trans ?_
  rw [whole1_0, whole1_1]
  have k0 : (((cfg1.win 2).blk t).view.emb y 0).val = (y 0).val := by
    show win1_2.index t (0 : Fin 3) * 4 + 1 * (y 0).val = (y 0).val; omega
  have k1 : (((cfg1.win 2).blk t).view.emb y 1).val = (y 1).val := by
    show win1_2.index t (1 : Fin 3) * 384 + 1 * (y 1).val = (y 1).val; omega
  have k2 : (((cfg1.win 2).blk t).view.emb y 2).val = 128 * (grid1.coords t 0).val + (y 2).val := by
    show win1_2.index t (2 : Fin 3) * 128 + 1 * (y 2).val = 128 * (grid1.coords t 0).val + (y 2).val; omega
  have c0 : (⟨(((cfg1.win 2).blk t).view.emb y 0).val, (((cfg1.win 2).blk t).view.emb y 0).isLt⟩ : Fin 4)
      = win1_2.xinj (grid1.coords t) y 0 := Fin.ext k0
  have c1 : (⟨(((cfg1.win 2).blk t).view.emb y 1).val, (((cfg1.win 2).blk t).view.emb y 1).isLt⟩ : Fin 384)
      = win1_2.xinj (grid1.coords t) y 1 := Fin.ext k1
  show _ = ∑ n : Fin 2048, if (dsTArr V c (ix2 (⟨(((cfg1.win 2).blk t).view.emb y 1).val, (((cfg1.win 2).blk t).view.emb y 1).isLt⟩ : Fin 384) n)).toInt
        = ((((cfg1.win 2).blk t).view.emb y 2).val : Int)
      then wArr V c (ix2 (⟨(((cfg1.win 2).blk t).view.emb y 0).val, (((cfg1.win 2).blk t).view.emb y 0).isLt⟩ : Fin 4) n) else 0
  rw [c0, c1, k2]

/-- An entry of the result lies in point t's tile iff each coordinate lies in the tile's range on its axis (the range the
    transfer keeps: the last tile's stops at the array's end). -/
theorem mem_blk1 (t : Fin cfg1.N) (i : S4x384x50265.Idx) :
    i ∈ ((cfg1.win 2).blk t).view.set ↔ ∀ a : Fin 3, win1_2.index t a * S4x384x128.size a ≤ (i a).val
      ∧ (i a).val < win1_2.index t a * S4x384x128.size a + win1_2.xsize (grid1.coords t) a := by
  show i ∈ ((View.whole main_v2).slice (win1_2.rect t)).set ↔ _
  rw [View.set_slice_whole, Rect.mem_set_unit]
  exact Iff.rfl

/-- The scatter region's result array after its run: entry (b, c, v) is the total weight of the dataset rows whose token at
    position c is v. -/
theorem arr1 (c : Dev nD) :
    (dat1 (F := Ideal) V c).arrAt 2 cfg1.N = (fun i : S4x384x50265.Idx =>
      ∑ n : Fin 2048, if (dsTArr V c (ix2 ⟨(i 1).val, (i 1).isLt⟩ n)).toInt = ((i 2).val : Int)
        then wArr V c (ix2 ⟨(i 0).val, (i 0).isLt⟩ n) else 0) := by
  refine (dat1 (F := Ideal) V c).arrAt_eq_of_cover 2 (flowArr V c) (fun t _ => flushed1 V c t) ?_
  intro i
  have h0 : (i 0).val < 4 := (i 0).isLt
  have h1 : (i 1).val < 384 := (i 1).isLt
  have h2 : (i 2).val < 50265 := (i 2).isLt
  have hN : (i 2).val / 128 < cfg1.N := by
    show (i 2).val / 128 < 393
    omega
  refine ⟨⟨(i 2).val / 128, hN⟩, flush1_2 _, ?_⟩
  obtain ⟨-, -, -, -, e0, e1, e2, -, x0, x1, x2⟩ := idx1 ⟨(i 2).val / 128, hN⟩
  rw [mem_blk1]
  intro a
  match a with
  | ⟨0, _⟩ =>
    show win1_2.index ⟨(i 2).val / 128, hN⟩ (0 : Fin 3) * 4 ≤ (i 0).val
      ∧ (i 0).val < win1_2.index ⟨(i 2).val / 128, hN⟩ (0 : Fin 3) * 4 + win1_2.xsize (grid1.coords ⟨(i 2).val / 128, hN⟩) (0 : Fin 3)
    omega
  | ⟨1, _⟩ =>
    show win1_2.index ⟨(i 2).val / 128, hN⟩ (1 : Fin 3) * 384 ≤ (i 1).val
      ∧ (i 1).val < win1_2.index ⟨(i 2).val / 128, hN⟩ (1 : Fin 3) * 384 + win1_2.xsize (grid1.coords ⟨(i 2).val / 128, hN⟩) (1 : Fin 3)
    omega
  | ⟨2, _⟩ =>
    show win1_2.index ⟨(i 2).val / 128, hN⟩ (2 : Fin 3) * 128 ≤ (i 2).val
      ∧ (i 2).val < win1_2.index ⟨(i 2).val / 128, hN⟩ (2 : Fin 3) * 128 + win1_2.xsize (grid1.coords ⟨(i 2).val / 128, hN⟩) (2 : Fin 3)
    rw [e2, x2]
    show (i 2).val / 128 * 128 ≤ (i 2).val ∧ (i 2).val < (i 2).val / 128 * 128 + min 128 (50265 - (i 2).val / 128 * 128)
    omega

/-! ## The weights region: one point, every block the whole array -/

theorem off2 : (![0, 0] : Fin 2 → Nat) = fun _ => 0 := funext fun a => by fin_cases a <;> rfl
theorem off1 : (![0] : Fin 1 → Nat) = fun _ => 0 := funext fun a => by fin_cases a; rfl

/-- Every window of the weights region sits at block index zero on every axis, at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- A block that is the whole array, read back, is the array: the dataset, -/
theorem whole0_0 (c : Dev nD) (t : Fin cfg0.N) : (iblk0 V c 0 t : Vec Ideal S2048x384 .i32) = V c (Pipeline.arrRef spec0 0) := by
  obtain ⟨e0, e1, -⟩ := idx0 t
  funext y
  show V c (Pipeline.arrRef spec0 0) (((cfg0.win 0).blk t).view.emb y) = V c (Pipeline.arrRef spec0 0) y
  refine congrArg _ ?_
  funext a; apply Fin.ext
  match a with
  | ⟨0, _⟩ => show win0_0.index t (0 : Fin 2) * 2048 + 1 * (y 0).val = (y 0).val; omega
  | ⟨1, _⟩ => show win0_0.index t (1 : Fin 2) * 384 + 1 * (y 1).val = (y 1).val; omega

/-- the input, -/
theorem whole0_1 (c : Dev nD) (t : Fin cfg0.N) : (iblk0 V c 1 t : Vec Ideal S4x384 .i32) = V c (Pipeline.arrRef spec0 1) := by
  obtain ⟨-, -, e0, e1, -⟩ := idx0 t
  funext y
  show V c (Pipeline.arrRef spec0 1) (((cfg0.win 1).blk t).view.emb y) = V c (Pipeline.arrRef spec0 1) y
  refine congrArg _ ?_
  funext a; apply Fin.ext
  match a with
  | ⟨0, _⟩ => show win0_1.index t (0 : Fin 2) * 4 + 1 * (y 0).val = (y 0).val; omega
  | ⟨1, _⟩ => show win0_1.index t (1 : Fin 2) * 384 + 1 * (y 1).val = (y 1).val; omega

/-- the times. -/
theorem whole0_2 (c : Dev nD) (t : Fin cfg0.N) : (iblk0 V c 2 t : Vec Ideal S4 .f32) = V c (Pipeline.arrRef spec0 2) := by
  obtain ⟨-, -, -, -, e0, -⟩ := idx0 t
  funext y
  show V c (Pipeline.arrRef spec0 2) (((cfg0.win 2).blk t).view.emb y) = V c (Pipeline.arrRef spec0 2) y
  refine congrArg _ ?_
  funext a; apply Fin.ext
  match a with
  | ⟨0, _⟩ => show win0_2.index t (0 : Fin 1) * 4 + 1 * (y 0).val = (y 0).val; omega

/-- What the one point writes back is the whole of the kernel's stored value of the three arrays. -/
theorem flushed0 (c : Dev nD) (t : Fin cfg0.N) :
    (dat0 (F := Ideal) V c).flushed 3 t = ((cfg0.win 3).blk t).view.read (Elt Ideal)
      (k0_pay1 (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero off2]
  simp only [View.ld_unit_zero (S := S2048x384) off2, View.ld_unit_zero (S := S4x384) off2, View.ld_unit_zero (S := S4) off1]
  rw [whole0_0, whole0_1, whole0_2]
  obtain ⟨-, -, -, -, -, e0, e1⟩ := idx0 t
  funext y
  generalize k0_pay1 (F := Ideal) (V c (Pipeline.arrRef spec0 0)) (V c (Pipeline.arrRef spec0 1)) (V c (Pipeline.arrRef spec0 2)) = G
  show G (win0_3.xinj (grid0.coords t) y) = G (((cfg0.win 3).blk t).view.emb y)
  refine congrArg G ?_
  funext a; apply Fin.ext
  match a with
  | ⟨0, _⟩ => show (y 0).val = win0_3.index t (0 : Fin 2) * 4 + 1 * (y 0).val; omega
  | ⟨1, _⟩ => show (y 1).val = win0_3.index t (1 : Fin 2) * 2048 + 1 * (y 1).val; omega

/-- An entry of the weights array lies in the one point's block: the block is the whole array. -/
theorem mem_blk0 (t : Fin cfg0.N) (i : S4x2048.Idx) :
    i ∈ ((cfg0.win 3).blk t).view.set ↔ ∀ a : Fin 2, win0_3.index t a * S4x2048.size a ≤ (i a).val ∧ (i a).val < win0_3.index t a * S4x2048.size a + S4x2048.size a := by
  show i ∈ ((View.whole main_v0).slice (win0_3.rect t)).set ↔ _
  rw [View.set_slice_whole, Rect.mem_set_unit]
  exact Iff.rfl

/-- The weights region's result array after its run: the kernel's stored value of the three arrays it reads. -/
theorem arr0 (c : Dev nD) :
    (dat0 (F := Ideal) V c).arrAt 3 cfg0.N
      = k0_pay1 (F := Ideal) (V c (Pipeline.arrRef spec0 0)) (V c (Pipeline.arrRef spec0 1)) (V c (Pipeline.arrRef spec0 2)) := by
  refine (dat0 (F := Ideal) V c).arrAt_eq_of_cover 3 _ (fun t _ => flushed0 V c t) ?_
  intro i
  refine ⟨t0_0, flush0_3 t0_0, ?_⟩
  obtain ⟨-, -, -, -, -, e0, e1⟩ := idx0 t0_0
  rw [mem_blk0]
  intro a
  match a with
  | ⟨0, _⟩ => show win0_3.index t0_0 (0 : Fin 2) * 4 ≤ (i 0).val ∧ (i 0).val < win0_3.index t0_0 (0 : Fin 2) * 4 + 4; have h0 : (i 0).val < 4 := (i 0).isLt; omega
  | ⟨1, _⟩ => show win0_3.index t0_0 (1 : Fin 2) * 2048 ≤ (i 1).val ∧ (i 1).val < win0_3.index t0_0 (1 : Fin 2) * 2048 + 2048; have h1 : (i 1).val < 2048 := (i 1).isLt; omega

end Cert.KernelIdeal.ArrayValue

end
-- ==== Proof.KValue.lean ====
/-
  The kernel program's result buffer after the run, as the specification's function of the three argument arrays.

  The run leaves the result at what the scatter region's write-backs fold to. That region is entered with the transposed
  dataset (one host transpose of the second argument) and with the weights the first region wrote (its stored value of the
  dataset, the input and the times as launched). Entry (b, c, v) of the scatter region's array sums the weights of input row
  b over the dataset rows n whose transposed entry (c, n), which is the dataset's entry (n, c), is v; and entry (b, n) of the
  weights is the softmax weight of dataset row n for input row b.
-/
import proofs.«408879_j5617817224099_3_alg».proof.Proof.Gen.KernelIdeal.Frame
import proofs.«408879_j5617817224099_3_alg».proof.Proof.Spec
import proofs.«408879_j5617817224099_3_alg».proof.Proof.KWeights
import proofs.«408879_j5617817224099_3_alg».proof.Proof.KArrays
import Idealize.ShloMosaic.Lib.Pipeline.Value
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The dataset, the input and the times as launched, at their literal types. -/
abbrev dsArg (c : Dev nD) : Vec Ideal S2048x384 .i32 := m ((c : Thread nD τ).loc main_arg1)
abbrev inArg (c : Dev nD) : Vec Ideal S4x384 .i32 := m ((c : Thread nD τ).loc main_arg0)
abbrev tArg (c : Dev nD) : Vec Ideal S4 .f32 := m ((c : Thread nD τ).loc main_arg2)

/-- The one host operation between the regions does not write the weights' buffer. -/
theorem W2_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.unary_writes, Finset.mem_singleton]
    exact StableHlo.devRef_ne_of_ne (by decide)))

/-- When the scatter region is entered the weights' buffer holds the first region's stored value of the arguments as launched. -/
theorem V2_weights (c : Dev nD) :
    (V2 m ρ c main_v0 : Vec Ideal S4x2048 .f32) = k0_pay1 (F := Ideal) (dsArg m c) (inArg m c) (tArg m c) :=
  calc (V2 m ρ c main_v0 : Vec Ideal S4x2048 .f32)
    _ = W1 m ρ c (Proc.devRef .tc main_v0) := W2_v0 m ρ c
    _ = (dat0 (V0 m ρ) c).arrAt 3 cfg0.N := W1_arr m ρ c 3
    _ = k0_pay1 (F := Ideal) (V0 m ρ c (Pipeline.arrRef spec0 0)) (V0 m ρ c (Pipeline.arrRef spec0 1)) (V0 m ρ c (Pipeline.arrRef spec0 2)) :=
          Cert.KernelIdeal.ArrayValue.arr0 (V0 m ρ) c
    _ = k0_pay1 (F := Ideal) (dsArg m c) (inArg m c) (tArg m c) := rfl

/-- The dataset's buffer is as launched when the host transpose reads it. -/
theorem W1_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))

/-- When the scatter region is entered the transposed dataset's buffer holds the transpose of the dataset as launched. -/
theorem V2_dsT (c : Dev nD) :
    (V2 m ρ c main_v1 : Vec Ideal S384x2048 .i32) = transpose S384x2048 [1, 0] (dsArg m c) transposes_S2048x384_S384x2048_1_0 := by
  show StableHlo.after hostOps1 (W1 m ρ c) (Proc.devRef .tc main_v1) = _
  after_results
  rw [W1_arg1]

/-- Entry (c, n) of the transposed dataset is entry (n, c) of the dataset. -/
theorem dsT_apply (c : Dev nD) (cc : Fin 384) (n : Fin 2048) :
    (V2 m ρ c main_v1 : Vec Ideal S384x2048 .i32) (ix2 cc n) = dsArg m c (ix2 n cc) := by
  rw [V2_dsT]
  exact transpose_apply [1, 0] (dsArg m c) transposes_S2048x384_S384x2048_1_0 (ix2 cc n) (ix2 n cc)
    (fun b => by match b with | ⟨0, _⟩ => rfl | ⟨1, _⟩ => rfl)

/-- The result buffer after the run is the specification's array of the arguments as launched. -/
theorem result_value (c : Dev nD) :
    W3 m ρ c (Proc.devRef .tc main_v2) = Cert.FlowSpec.result (dsArg m c) (inArg m c) (tArg m c) := by
  rw [show W3 m ρ c (Proc.devRef .tc main_v2) = (dat1 (V2 m ρ) c).arrAt 2 cfg1.N from W3_arr m ρ c 2,
    Cert.KernelIdeal.ArrayValue.arr1 (V2 m ρ) c]
  funext i
  obtain ⟨b, cc, v, rfl⟩ : ∃ (b : Fin 4) (cc : Fin 384) (v : Fin 50265), i = ix3 b cc v := ⟨i 0, i 1, i 2, eq_ix3 i⟩
  rw [Cert.FlowSpec.result_ix3]
  unfold Cert.FlowSpec.flow
  refine Finset.sum_congr rfl fun n _ => ?_
  have h1 : Cert.KernelIdeal.ArrayValue.dsTArr (V2 m ρ) c (ix2 cc n) = dsArg m c (ix2 n cc) := dsT_apply m ρ c cc n
  have h2 : Cert.KernelIdeal.ArrayValue.wArr (V2 m ρ) c (ix2 b n) = Cert.FlowSpec.wgt (dsArg m c) (inArg m c) (tArg m c) b n := by
    show (V2 m ρ c main_v0 : Vec Ideal S4x2048 .f32) (ix2 b n) = _
    rw [V2_weights]
    exact Cert.KernelIdeal.WeightsValue.k0_pay1_apply _ _ _ b n
  show (if (Cert.KernelIdeal.ArrayValue.dsTArr (V2 m ρ) c (ix2 cc n)).toInt = ((v : Fin 50265).val : Int) then
      Cert.KernelIdeal.ArrayValue.wArr (V2 m ρ) c (ix2 b n) else 0) = _
  rw [h1, h2]

end Cert.KernelIdeal.ResultValue

end
-- ==== Proof.RefWeights.lean ====
/-
  The reference's weights, read at an index: entry (n, b) of its softmax over the dataset axis is the weight
  `FlowSpec.wgt` of dataset row n for input row b.

  The count of agreeing positions is an integer sum of 384 zero-or-one words, so it never wraps and its value is the
  number of ones; the row maximum is a fold of `max` over the dataset rows from −∞; every other stage is read
  elementwise.
-/
import proofs.«408879_j5617817224099_3_alg».proof.Proof.Gen.ReferenceIdeal.Read
import proofs.«408879_j5617817224099_3_alg».proof.Proof.Spec
import Idealize.ShloMosaic.PureOps.Ideal.Laws
import Idealize.ShloMosaic.Lib.Pipeline.Value
import Idealize.ShloMosaic.Lib.StableHlo.Predicate

noncomputable section

namespace Cert.ReferenceIdeal.RefValue

open Idealize.ShloMosaic Idealize.ShloMosaic.ValueIdx Idealize.ShloMosaic.TcCoe Idealize.SL.Sem Cert.ReferenceIdeal Cert.ReferenceIdeal.Gen Cert.ReferenceIdeal.Read

/-! ### The shape facts of the two hand-read reductions, and the index equations -/

/-- The match count sums over the last of the three axes. -/
private theorem red6 : S2048x4x384.Reduces [(2 : Fin 3)] S2048x4 := by decide
/-- The row maximum folds over the dataset axis. -/
private theorem red28 : S2048x4.Reduces [(0 : Fin 2)] S4 := by decide

/-- Position k over entry (n, b) reads the dataset at (n, k) … -/
private theorem lift6_ds (n : Fin 2048) (b : Fin 4) (k : Fin 384) :
    idx_main_v0 (idx_main_v2 (red6.lift (ix2 n b) k)) = ix2 n k :=
  funext fun a => Fin.ext (by match a with | ⟨0, _⟩ => rfl | ⟨1, _⟩ => rfl)

/-- … and the input at (b, k). -/
private theorem lift6_inp (n : Fin 2048) (b : Fin 4) (k : Fin 384) :
    idx_main_v1 (idx_main_v3 (red6.lift (ix2 n b) k)) = ix2 b k :=
  funext fun a => Fin.ext (by match a with | ⟨0, _⟩ => rfl | ⟨1, _⟩ => rfl)

/-- Dataset row k over input row b is entry (k, b). -/
private theorem lift28 (b : Fin 4) (k : Fin 2048) : red28.lift (ix1 b) k = ix2 k b :=
  funext fun a => Fin.ext (by match a with | ⟨0, _⟩ => rfl | ⟨1, _⟩ => rfl)

private theorem idx19 (n : Fin 2048) (b : Fin 4) : idx_main_v19 (idx_main_v20 (ix2 n b)) = ix1 b :=
  funext fun a => Fin.ext (by match a with | ⟨0, _⟩ => rfl)
private theorem idx24 (n : Fin 2048) (b : Fin 4) : idx_main_v24 (idx_main_v25 (ix2 n b)) = ix1 b :=
  funext fun a => Fin.ext (by match a with | ⟨0, _⟩ => rfl)
private theorem idx31 (n : Fin 2048) (b : Fin 4) : idx_main_v31 (idx_main_v32 (ix2 n b)) = ix1 b :=
  funext fun a => Fin.ext (by match a with | ⟨0, _⟩ => rfl)
private theorem idx36 (n : Fin 2048) (b : Fin 4) : idx_main_v36 (idx_main_v37 (ix2 n b)) = ix1 b :=
  funext fun a => Fin.ext (by match a with | ⟨0, _⟩ => rfl)
private theorem idx35 (b : Fin 4) (k : Fin 2048) : idx_main_v35 (ix1 b) k = ix2 k b :=
  funext fun a => Fin.ext (by match a with | ⟨0, _⟩ => rfl | ⟨1, _⟩ => rfl)

/-! ### The match count -/

/-- The coercion of a finite real sum is the sum of the coercions. -/
private theorem coe_finset_sum {ι : Type} (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

/-- The widened comparison word at position k is 1 where the two tokens agree and 0 where they do not. -/
private theorem v5_lift (inp : (⟨S4x384, .i32⟩ : BufTy).Contents (Elt Ideal)) (ds : (⟨S2048x384, .i32⟩ : BufTy).Contents (Elt Ideal))
    (n : Fin 2048) (b : Fin 4) (k : Fin 384) :
    (val_main_v5 (F := Ideal) inp ds (red6.lift (ix2 n b) k)).toNat = if inp (ix2 b k) = ds (ix2 n k) then 1 else 0 := by
  rw [val_main_v5_apply, val_main_v4_apply, val_main_v2_apply, val_main_v0_apply, val_main_v3_apply, val_main_v1_apply,
    lift6_ds, lift6_inp, StableHlo.Predicate.toNat_setWidth_bit]
  exact if_congr (StableHlo.Predicate.cmpi_eq_iff.trans eq_comm) rfl rfl

/-- A sum of 384 zeros and ones is at most 384. -/
private theorem count_le (p : Fin 384 → Prop) [DecidablePred p] : (∑ k : Fin 384, if p k then 1 else 0) ≤ 384 :=
  calc (∑ k : Fin 384, if p k then 1 else 0) ≤ ∑ _k : Fin 384, 1 :=
        Finset.sum_le_sum fun k _ => by split <;> omega
    _ = 384 := by simp

/-- The integer sum of the comparison words is the number of agreeing positions: at most 384, it does not wrap. -/
private theorem v6_toNat (inp : (⟨S4x384, .i32⟩ : BufTy).Contents (Elt Ideal)) (ds : (⟨S2048x384, .i32⟩ : BufTy).Contents (Elt Ideal))
    (n : Fin 2048) (b : Fin 4) :
    (val_main_v6 (F := Ideal) inp ds (ix2 n b)).toNat = ∑ k : Fin 384, if inp (ix2 b k) = ds (ix2 n k) then 1 else 0 := by
  unfold val_main_v6
  rw [Host.reduce_eq_fold_single IntOp.addi _ _ reducesTo_S2048x4x384_S2048x4_d2 red6 h_S_ (ix2 n b)]
  have hsum : ∑ k : Fin 384, ((val_main_v5 (F := Ideal) inp ds ∘ red6.lift (ix2 n b)) k).toNat
      = ∑ k : Fin 384, if inp (ix2 b k) = ds (ix2 n k) then 1 else 0 :=
    Finset.sum_congr rfl fun k _ => v5_lift inp ds n b k
  have hle := count_le fun k => inp (ix2 b k) = ds (ix2 n k)
  refine (StableHlo.Predicate.toNat_fold_addi (Finset.univ : Finset (Fin 384)) _ ?_).trans hsum
  rw [hsum]; omega

/-- The count as a float: the number of agreeing positions, in the extended reals. -/
private theorem cnt_apply (inp : (⟨S4x384, .i32⟩ : BufTy).Contents (Elt Ideal)) (ds : (⟨S2048x384, .i32⟩ : BufTy).Contents (Elt Ideal))
    (n : Fin 2048) (b : Fin 4) :
    FloatOps.sitofp (F := Ideal) .f32 (val_main_v6 (F := Ideal) inp ds (ix2 n b)) = Cert.FlowSpec.cnt ds inp b n := by
  have hle := count_le fun k => inp (ix2 b k) = ds (ix2 n k)
  show (((val_main_v6 (F := Ideal) inp ds (ix2 n b)).toInt : ℝ) : EReal) = _
  rw [StableHlo.Predicate.toInt_eq_toNat_of_lt (by rw [v6_toNat]; omega), v6_toNat]
  unfold Cert.FlowSpec.cnt
  push_cast
  rw [coe_finset_sum]
  refine Finset.sum_congr rfl fun k _ => ?_
  split <;> simp

/-! ### The log-weight, the row maximum, the exponentials, their sum, the quotient -/

/-- Entry (n, b) of the reference's log-weights. -/
theorem ref_logp_apply (inp : (⟨S4x384, .i32⟩ : BufTy).Contents (Elt Ideal)) (ds : (⟨S2048x384, .i32⟩ : BufTy).Contents (Elt Ideal))
    (t : (⟨S4, .f32⟩ : BufTy).Contents (Elt Ideal)) (n : Fin 2048) (b : Fin 4) :
    val_main_v27 (F := Ideal) inp ds t (ix2 n b) = Cert.FlowSpec.logp ds inp t b n := by
  rw [val_main_v27_apply, val_main_v21_apply, val_main_v26_apply, val_main_v23_apply, val_main_v7_apply, cnt_apply,
    val_main_v20_apply, val_main_v19_apply, val_main_v13_apply, val_main_v12_apply, val_main_v11_apply, val_main_v9_apply,
    val_main_v8_apply, val_main_cst_apply, val_main_v10_apply, val_main_cst_0_apply, val_main_v22_apply, val_main_cst_3_apply,
    val_main_v25_apply, val_main_v24_apply, val_main_v18_apply, val_main_v17_apply, val_main_v15_apply, val_main_v14_apply,
    val_main_cst_1_apply, val_main_v16_apply, val_main_cst_2_apply, idx19, idx24]
  rfl

/-- Entry b of the reference's fold of `max` over the dataset rows, from −∞. -/
private theorem v28_apply (inp : (⟨S4x384, .i32⟩ : BufTy).Contents (Elt Ideal)) (ds : (⟨S2048x384, .i32⟩ : BufTy).Contents (Elt Ideal))
    (t : (⟨S4, .f32⟩ : BufTy).Contents (Elt Ideal)) (b : Fin 4) :
    val_main_v28 (F := Ideal) inp ds t (ix1 b) = Cert.FlowSpec.rowMax ds inp t b := by
  unfold val_main_v28
  rw [Host.reduce_eq_fold_single FloatOps.maximumf _ _ reducesTo_S2048x4_S4_d0 red28 h_S_ (ix1 b)]
  have hf : (val_main_v27 (F := Ideal) inp ds t ∘ red28.lift (ix1 b)) = fun n : Fin 2048 => Cert.FlowSpec.logp ds inp t b n :=
    funext fun (k : Fin 2048) => by
      show val_main_v27 (F := Ideal) inp ds t (red28.lift (ix1 b) k) = _
      rw [lift28, ref_logp_apply]
  rw [hf]
  rfl

/-- Entry b of the reference's row maxima: the maximum of −∞ and the fold, which is the fold, since the fold starts from −∞. -/
theorem ref_rowMax_apply (inp : (⟨S4x384, .i32⟩ : BufTy).Contents (Elt Ideal)) (ds : (⟨S2048x384, .i32⟩ : BufTy).Contents (Elt Ideal))
    (t : (⟨S4, .f32⟩ : BufTy).Contents (Elt Ideal)) (b : Fin 4) :
    val_main_v30 (F := Ideal) inp ds t (ix1 b) = Cert.FlowSpec.rowMax ds inp t b := by
  rw [val_main_v30_apply, v28_apply, val_main_v29_apply, val_main_cst_5_apply]
  show max Cert.FlowSpec.negInf (Cert.FlowSpec.rowMax ds inp t b) = _
  exact max_eq_right ((Finset.le_fold_max _).2 (Or.inl le_rfl))

/-- Entry (n, b) of the reference's shifted exponentials. -/
theorem ref_ex_apply (inp : (⟨S4x384, .i32⟩ : BufTy).Contents (Elt Ideal)) (ds : (⟨S2048x384, .i32⟩ : BufTy).Contents (Elt Ideal))
    (t : (⟨S4, .f32⟩ : BufTy).Contents (Elt Ideal)) (n : Fin 2048) (b : Fin 4) :
    val_main_v34 (F := Ideal) inp ds t (ix2 n b) = Cert.FlowSpec.ex ds inp t b n := by
  rw [val_main_v34_apply, val_main_v33_apply, ref_logp_apply, val_main_v32_apply, val_main_v31_apply, idx31, ref_rowMax_apply]
  rfl

/-- Entry b of the reference's normalisers. -/
theorem ref_rowSum_apply (inp : (⟨S4x384, .i32⟩ : BufTy).Contents (Elt Ideal)) (ds : (⟨S2048x384, .i32⟩ : BufTy).Contents (Elt Ideal))
    (t : (⟨S4, .f32⟩ : BufTy).Contents (Elt Ideal)) (b : Fin 4) :
    val_main_v35 (F := Ideal) inp ds t (ix1 b) = Cert.FlowSpec.rowSum ds inp t b := by
  rw [val_main_v35_apply, val_main_cst_6_apply]
  show Ideal.ofBits .f32 0x00000000#32 + _ = _
  rw [Ideal.ofBits_zero_f32, zero_add]
  unfold Cert.FlowSpec.rowSum
  exact Finset.sum_congr rfl fun k _ => by rw [idx35, ref_ex_apply]

/-- Entry (n, b) of the reference's normalised weights. -/
theorem weights_apply (inp : (⟨S4x384, .i32⟩ : BufTy).Contents (Elt Ideal)) (ds : (⟨S2048x384, .i32⟩ : BufTy).Contents (Elt Ideal))
    (t : (⟨S4, .f32⟩ : BufTy).Contents (Elt Ideal)) (n : Fin 2048) (b : Fin 4) :
    val_main_v38 (F := Ideal) inp ds t (ix2 n b) = Cert.FlowSpec.wgt ds inp t b n := by
  rw [val_main_v38_apply, ref_ex_apply, val_main_v37_apply, val_main_v36_apply, idx36, ref_rowSum_apply]
  rfl

end Cert.ReferenceIdeal.RefValue

end
-- ==== Proof.LibScatterAdd.lean ====
/-
  The host's accumulating scatter over the extended reals, read at an index, for any extents.

  `scatterAdd_rows`: operand [N, C], ids an [E, 1] column, updates [E, C] (what `segment_sum` of rows lowers to):
  entry (n, c) of the result is the operand's entry plus the sum, over the edges e whose id — read as a signed
  word, not clamped — is n, of update (e, c). An id outside [0, N) lands nowhere.
  `scatterAdd_vec`: the same for a rank-1 operand [N] and updates [E].
-/
import Idealize.ShloMosaic.PureOps.Ideal
import Idealize.ShloMosaic.PureOps.Dims
import Idealize.ShloMosaic.Lib.ValueIdx

namespace IndexOpsLib

open Idealize.ShloMosaic Idealize.ShloMosaic.ValueIdx

/-- An entry of a list that is a singleton is its one element. -/
theorem getElem_of_eq_singleton {α : Type} {l : List α} {a : α} (h : l = [a]) (i : Nat) (hi : i < l.length) :
    l[i] = a := by
  subst h
  have h0 : i = 0 := by simpa using hi
  subst h0
  rfl

/-- An update lands at operand index `i` exactly when, on every operand axis, its start plus its window
    coordinate is `i`'s coordinate: the range condition is then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      rw [← hi]
      have h1 := (h a).1
      show _ = (((d.start j idx a + (d.window j a : Int)).toNat : Nat) : Int)
      omega
    · intro hi
      funext a
      apply Fin.ext
      show (d.start j idx a + (d.window j a : Int)).toNat = (i a).val
      have h1 := hi a
      omega
  · rename_i h
    constructor
    · intro hi
      cases hi
    · intro hi
      exfalso
      apply h
      intro a
      have h1 := hi a
      have h2 : (i a).val < s.size a := (i a).isLt
      omega

section Rows

variable {N C E w : Nat} (d : ScatterDims ⟨2, ![N, C]⟩ ⟨2, ![E, 1]⟩ ⟨2, ![E, C]⟩)

/-- On operand axis 0 (the scattered one) the start of update (e, c') is edge e's id, read signed. -/
theorem rows_start0 (huw : d.updateWindowDims = [1]) (hsd : d.scatterDimsToOperandDims = [0])
    (hivd : d.indexVectorDim = 1) (idx : IVec ⟨2, ![E, 1]⟩ w) (e : Fin E) (c' : Fin C) :
    d.start (ix2 e c') idx 0 = (idx (ix2 e (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    -- the ids' axis 0 is read at the update's one scatter axis, axis 0
    unfold ScatterDims.siIdx
    rw [dif_neg (by rw [hivd]; simp)]
    apply Fin.ext
    unfold ScatterDims.siCoord
    simp only [Fin.val_cast]
    have hx : ∀ x : Fin 2, x = 0 → ((ix2 e c' : (⟨2, ![E, C]⟩ : Shape).Idx) x).val = e.val := by
      intro x hx; subst hx; rfl
    exact hx _ (getElem_of_eq_singleton (by show Shape.kept _ d.updateWindowDims = [0]; rw [huw]; rfl) _ _)
  | ⟨1, _⟩ =>
    -- the index vector's axis holds the component's position in the map, 0
    unfold ScatterDims.siIdx
    rw [dif_pos (by rw [hivd])]
    apply Fin.ext
    show List.idxOf (0 : Fin 2) d.scatterDimsToOperandDims = 0
    rw [hsd]; simp

/-- On operand axis 1 (not in the map) the start is 0. -/
theorem rows_start1 (hsd : d.scatterDimsToOperandDims = [0]) (idx : IVec ⟨2, ![E, 1]⟩ w)
    (j : (⟨2, ![E, C]⟩ : Shape).Idx) : d.start j idx 1 = 0 := by
  have hm : (1 : Fin 2) ∉ d.scatterDimsToOperandDims := by rw [hsd]; simp
  unfold ScatterDims.start
  rw [dif_neg hm]

/-- On the inserted operand axis 0 the window coordinate is 0. -/
theorem rows_window0 (hiw : d.insertedWindowDims = [0]) (j : (⟨2, ![E, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On operand axis 1 the window coordinate of update (e, c') is c'. -/
theorem rows_window1 (huw : d.updateWindowDims = [1]) (hiw : d.insertedWindowDims = [0]) (e : Fin E) (c' : Fin C) :
    d.window (ix2 e c') 1 = c'.val := by
  have hk : (1 : Fin 2) ∈ d.sKept := by
    show (1 : Fin 2) ∈ Shape.kept _ d.insertedWindowDims
    rw [hiw]; simp [Shape.kept]
  unfold ScatterDims.window
  rw [dif_pos hk]
  have hx : ∀ x : Fin 2, x = 1 → ((ix2 e c' : (⟨2, ![E, C]⟩ : Shape).Idx) x).val = c'.val := by
    intro x hx; subst hx; rfl
  exact hx _ (getElem_of_eq_singleton huw _ _)

end Rows

section RowsMain

variable {N C E w : Nat} (d : ScatterDims ⟨2, ![N, C]⟩ ⟨2, ![E, 1]⟩ ⟨2, ![E, C]⟩)

/-- Update (e, c') lands at operand entry (n, c) exactly when edge e's id, read signed, is n and c' = c. -/
theorem rows_resultIdx?_eq_some_iff (huw : d.updateWindowDims = [1]) (hiw : d.insertedWindowDims = [0])
    (hsd : d.scatterDimsToOperandDims = [0]) (hivd : d.indexVectorDim = 1) (idx : IVec ⟨2, ![E, 1]⟩ w)
    (e : Fin E) (c' : Fin C) (n : Fin N) (c : Fin C) :
    d.resultIdx? (ix2 e c') idx = some (ix2 n c)
      ↔ (idx (ix2 e (0 : Fin 1))).toInt = (n.val : Int) ∧ c' = c := by
  rw [resultIdx?_eq_some_iff]
  constructor
  · intro h
    have h0 : d.start (ix2 e c') idx 0 + ((d.window (ix2 e c') 0 : Nat) : Int) = (n.val : Int) := h 0
    have h1 : d.start (ix2 e c') idx 1 + ((d.window (ix2 e c') 1 : Nat) : Int) = (c.val : Int) := h 1
    rw [rows_start0 d huw hsd hivd, rows_window0 d hiw] at h0
    rw [rows_start1 d hsd, rows_window1 d huw hiw] at h1
    refine ⟨?_, Fin.ext ?_⟩
    · omega
    · omega
  · rintro ⟨h0, h1⟩ a
    match a with
    | ⟨0, _⟩ =>
      show d.start (ix2 e c') idx 0 + ((d.window (ix2 e c') 0 : Nat) : Int) = (n.val : Int)
      rw [rows_start0 d huw hsd hivd, rows_window0 d hiw]
      omega
    | ⟨1, _⟩ =>
      show d.start (ix2 e c') idx 1 + ((d.window (ix2 e c') 1 : Nat) : Int) = (c.val : Int)
      rw [rows_start1 d hsd, rows_window1 d huw hiw, h1]
      omega

end RowsMain

theorem scatterAdd_rows {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  -- the filtered sum is a sum of `if`s over all updates, split by coordinates (e, c')
  rw [Finset.sum_filter, sum_idx2]
  refine Finset.sum_congr rfl (fun e _ => ?_)
  by_cases he : (idx (ix2 e (0 : Fin 1))).toInt = (n.val : Int)
  · -- edge e's id is n: of row e only the entry in column c lands at (n, c)
    rw [if_pos he, Finset.sum_eq_single c]
    · rw [if_pos ((rows_resultIdx?_eq_some_iff d huw hiw hsd hivd idx e c n c).2 ⟨he, rfl⟩)]
    · intro c' _ hc'
      rw [if_neg (fun h => hc' ((rows_resultIdx?_eq_some_iff d huw hiw hsd hivd idx e c' n c).1 h).2)]
    · intro h
      exact absurd (Finset.mem_univ c) h
  · -- edge e's id is not n: nothing of row e lands in row n
    rw [if_neg he]
    refine Finset.sum_eq_zero (fun c' _ => ?_)
    rw [if_neg (fun h => he ((rows_resultIdx?_eq_some_iff d huw hiw hsd hivd idx e c' n c).1 h).1)]

section Vec

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable {N E w : Nat} (d : ScatterDims ⟨1, ![N]⟩ ⟨2, ![E, 1]⟩ ⟨1, ![E]⟩)

/-- On the operand's one axis the start of update e is edge e's id, read signed. -/
theorem vec_start0 (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the ids' axis 0 is read at the update's one axis
    unfold ScatterDims.siIdx
    rw [dif_neg (by rw [hivd]; simp)]
    apply Fin.ext
    unfold ScatterDims.siCoord
    simp only [Fin.val_cast]
    have hx : ∀ x : Fin 1, ((ix1 e : (⟨1, ![E]⟩ : Shape).Idx) x).val = e.val := by
      intro x
      obtain rfl : x = 0 := Subsingleton.elim _ _
      rfl
    exact hx _
  | ⟨1, _⟩ =>
    -- the index vector's axis holds the component's position in the map, 0
    unfold ScatterDims.siIdx
    rw [dif_pos (by rw [hivd])]
    apply Fin.ext
    show List.idxOf (0 : Fin 1) d.scatterDimsToOperandDims = 0
    rw [hsd]; simp

/-- The operand's one axis is inserted: the window coordinate is 0. -/
theorem vec_window0 (hiw : d.insertedWindowDims = [0]) (j : (⟨1, ![E]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Update e lands at operand entry n exactly when edge e's id, read signed, is n. -/
theorem vec_resultIdx?_eq_some_iff (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e (0 : Fin 1))).toInt = (n.val : Int) := by
  rw [resultIdx?_eq_some_iff]
  constructor
  · intro h
    have h0 : d.start (ix1 e) idx 0 + ((d.window (ix1 e) 0 : Nat) : Int) = (n.val : Int) := h 0
    rw [vec_start0 d hsd hivd, vec_window0 d hiw] at h0
    omega
  · intro h0 a
    obtain rfl : a = 0 := Subsingleton.elim _ _
    show d.start (ix1 e) idx 0 + ((d.window (ix1 e) 0 : Nat) : Int) = (n.val : Int)
    rw [vec_start0 d hsd hivd, vec_window0 d hiw]
    omega

end Vec

theorem scatterAdd_vec {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  -- the filtered sum is a sum of `if`s over all updates, indexed by the edge e
  rw [Finset.sum_filter, sum_idx1]
  refine Finset.sum_congr rfl (fun e _ => ?_)
  by_cases he : (idx (ix2 e (0 : Fin 1))).toInt = (n.val : Int)
  · rw [if_pos he, if_pos ((vec_resultIdx?_eq_some_iff d hiw hsd hivd idx e n).2 he)]
  · rw [if_neg he, if_neg (fun h => he ((vec_resultIdx?_eq_some_iff d hiw hsd hivd idx e n).1 h))]

/-- `scatterAdd_rows` for the printed operation `Host.scatterAdd` read over the extended reals: stated over the operation's own
    head so that it applies to a program's term as it is written, at any extents. -/
theorem hostScatterAdd_rows {N C E w : Nat} {φ : FTy}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd d x idx upd (ix2 n c)
      = x (ix2 n c) + ∑ e : Fin E, if (idx (ix2 e (0 : Fin 1))).toInt = (n.val : Int) then upd (ix2 e c) else 0 :=
  scatterAdd_rows d huw hiw hsd hivd x idx upd n c

/-- `scatterAdd_vec` for the printed operation `Host.scatterAdd` read over the extended reals. -/
theorem hostScatterAdd_vec {N E w : Nat} {φ : FTy}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ)
    (n : Fin N) :
    Host.scatterAdd d x idx upd (ix1 n)
      = x (ix1 n) + ∑ e : Fin E, if (idx (ix2 e (0 : Fin 1))).toInt = (n.val : Int) then upd (ix1 e) else 0 :=
  scatterAdd_vec d huw hiw hsd hivd x idx upd n

end IndexOpsLib
-- ==== Proof.LibScatterTok.lean ====
/-
  The host's accumulating scatter over the extended reals, read at an index, for any extents, in the form
  `x.at[:, positions, tokens].add(u)` lowers to: operand [B, C, T], index vectors [N, C, 2] whose component 0 is the position
  and component 1 a token, updates [B, N, C] (update window axis 0; operand axes 1 and 2 inserted and mapped from the two
  components; the index vector on the indices' axis 2).

  `scatterAdd_tok` / `hostScatterAdd_tok` (the latter over the printed operation `Host.scatterAdd`): entry (b, c, v) of the result
  is the operand's entry plus the sum, over the rows n whose token at position c — read as a signed word, not clamped — is v,
  of update (b, n, c); a token outside [0, T) lands nowhere. `tok_resultIdx?_eq_some_iff`: where update (b', n, c') lands.
  `sum_idx3` / `idxEquiv3`: a sum over a rank-3 index set as a triple sum. `select_slt_zero_of_nonneg`: the wrap
  `select (x < 0) y x` of a word that is not negative keeps the word.
-/
import Idealize.ShloMosaic.PureOps.Ideal
import Idealize.ShloMosaic.PureOps.Dims
import Idealize.ShloMosaic.Lib.ValueIdx
import Idealize.ShloMosaic.Lib.StableHlo.Predicate
import proofs.«408879_j5617817224099_3_alg».proof.Proof.LibScatterAdd

noncomputable section

namespace IndexOpsLib.ScatterTok

open Idealize.ShloMosaic Idealize.ShloMosaic.ValueIdx IndexOpsLib

/-- An entry of a list that is a pair is the first element at position 0 … -/
theorem getElem_of_eq_pair_zero {α : Type} {l : List α} {a b : α} (h : l = [a, b]) (i : Nat) (hi : i < l.length)
    (h0 : i = 0) : l[i] = a := by
  subst h; subst h0; rfl

/-- … and the second at position 1. -/
theorem getElem_of_eq_pair_one {α : Type} {l : List α} {a b : α} (h : l = [a, b]) (i : Nat) (hi : i < l.length)
    (h1 : i = 1) : l[i] = b := by
  subst h; subst h1; rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

section Tok

variable {B C T N K w : Nat} (d : ScatterDims ⟨3, ![B, C, T]⟩ ⟨3, ![N, K, 2]⟩ ⟨3, ![B, N, K]⟩)

/-- The scatter-indices entry update (b', n, c') reads for component k of its start: entry (n, c', k). -/
theorem tok_siIdx (huw : d.updateWindowDims = [0]) (hivd : d.indexVectorDim = 2)
    (b' : Fin B) (n : Fin N) (c' : Fin K) (k : Fin d.scatterDimsToOperandDims.length) (k' : Fin 2)
    (hk : k.val = k'.val) :
    d.siIdx (ix3 b' n c') k = ix3 n c' k' := by
  have huS : d.uScatter = [1, 2] := by
    show Shape.kept _ d.updateWindowDims = [1, 2]
    rw [huw]; rfl
  have hsk : d.siKept = [0, 1] := by
    show (List.finRange 3).filter (fun x => x.val ≠ d.indexVectorDim) = [0, 1]
    rw [hivd]; rfl
  funext b
  match b with
  | ⟨0, _⟩ =>
    unfold ScatterDims.siIdx
    rw [dif_neg (by rw [hivd]; simp)]
    apply Fin.ext
    unfold ScatterDims.siCoord
    simp only [Fin.val_cast]
    have hx : ∀ x : Fin 3, x = 1 → ((ix3 b' n c' : (⟨3, ![B, N, K]⟩ : Shape).Idx) x).val = n.val := by
      intro x hx; subst hx; rfl
    exact hx _ (getElem_of_eq_pair_zero huS _ _ (by rw [hsk]; rfl))
  | ⟨1, _⟩ =>
    unfold ScatterDims.siIdx
    rw [dif_neg (by rw [hivd]; simp)]
    apply Fin.ext
    unfold ScatterDims.siCoord
    simp only [Fin.val_cast]
    have hx : ∀ x : Fin 3, x = 2 → ((ix3 b' n c' : (⟨3, ![B, N, K]⟩ : Shape).Idx) x).val = c'.val := by
      intro x hx; subst hx; rfl
    exact hx _ (getElem_of_eq_pair_one huS _ _ (by rw [hsk]; rfl))
  | ⟨2, _⟩ =>
    unfold ScatterDims.siIdx
    rw [dif_pos (by rw [hivd])]
    apply Fin.ext
    exact hk

end Tok

section Tok2

variable {B C T N K w : Nat} (d : ScatterDims ⟨3, ![B, C, T]⟩ ⟨3, ![N, K, 2]⟩ ⟨3, ![B, N, K]⟩)

/-- On operand axis 0 (not in the map) the start is 0. -/
theorem tok_start0 (hsd : d.scatterDimsToOperandDims = [1, 2]) (idx : IVec ⟨3, ![N, K, 2]⟩ w)
    (j : (⟨3, ![B, N, K]⟩ : Shape).Idx) : d.start j idx 0 = 0 := by
  have hm : (0 : Fin 3) ∉ d.scatterDimsToOperandDims := by rw [hsd]; simp
  unfold ScatterDims.start
  rw [dif_neg hm]

/-- On operand axis 1 the start of update (b', n, c') is component 0 of its index vector, read signed. -/
theorem tok_start1 (huw : d.updateWindowDims = [0]) (hsd : d.scatterDimsToOperandDims = [1, 2])
    (hivd : d.indexVectorDim = 2) (idx : IVec ⟨3, ![N, K, 2]⟩ w) (b' : Fin B) (n : Fin N) (c' : Fin K) :
    d.start (ix3 b' n c') idx 1 = (idx (ix3 n c' (0 : Fin 2))).toInt := by
  have hm : (1 : Fin 3) ∈ d.scatterDimsToOperandDims := by rw [hsd]; simp
  unfold ScatterDims.start
  rw [dif_pos hm]
  refine congrArg (fun q => (idx q).toInt) ?_
  refine tok_siIdx d huw hivd b' n c' _ 0 ?_
  show List.idxOf (1 : Fin 3) d.scatterDimsToOperandDims = 0
  rw [hsd]; rfl

/-- On operand axis 2 the start of update (b', n, c') is component 1 of its index vector, read signed. -/
theorem tok_start2 (huw : d.updateWindowDims = [0]) (hsd : d.scatterDimsToOperandDims = [1, 2])
    (hivd : d.indexVectorDim = 2) (idx : IVec ⟨3, ![N, K, 2]⟩ w) (b' : Fin B) (n : Fin N) (c' : Fin K) :
    d.start (ix3 b' n c') idx 2 = (idx (ix3 n c' (1 : Fin 2))).toInt := by
  have hm : (2 : Fin 3) ∈ d.scatterDimsToOperandDims := by rw [hsd]; simp
  unfold ScatterDims.start
  rw [dif_pos hm]
  refine congrArg (fun q => (idx q).toInt) ?_
  refine tok_siIdx d huw hivd b' n c' _ 1 ?_
  show List.idxOf (2 : Fin 3) d.scatterDimsToOperandDims = 1
  rw [hsd]; rfl

/-- On operand axis 0, the one window axis, the window coordinate of update (b', n, c') is b'. -/
theorem tok_window0 (huw : d.updateWindowDims = [0]) (hiw : d.insertedWindowDims = [1, 2])
    (b' : Fin B) (n : Fin N) (c' : Fin K) : d.window (ix3 b' n c') 0 = b'.val := by
  have hk : (0 : Fin 3) ∈ d.sKept := by
    show (0 : Fin 3) ∈ Shape.kept _ d.insertedWindowDims
    rw [hiw]; simp [Shape.kept]
  unfold ScatterDims.window
  rw [dif_pos hk]
  have hx : ∀ x : Fin 3, x = 0 → ((ix3 b' n c' : (⟨3, ![B, N, K]⟩ : Shape).Idx) x).val = b'.val := by
    intro x hx; subst hx; rfl
  exact hx _ (getElem_of_eq_singleton huw _ _)

/-- On the inserted operand axis 1 the window coordinate is 0. -/
theorem tok_window1 (hiw : d.insertedWindowDims = [1, 2]) (j : (⟨3, ![B, N, K]⟩ : Shape).Idx) :
    d.window j 1 = 0 := by
  have hk : (1 : Fin 3) ∉ d.sKept := by
    show (1 : Fin 3) ∉ Shape.kept _ d.insertedWindowDims
    rw [hiw]; simp [Shape.kept]
  unfold ScatterDims.window
  rw [dif_neg hk]

/-- Likewise on operand axis 2. -/
theorem tok_window2 (hiw : d.insertedWindowDims = [1, 2]) (j : (⟨3, ![B, N, K]⟩ : Shape).Idx) :
    d.window j 2 = 0 := by
  have hk : (2 : Fin 3) ∉ d.sKept := by
    show (2 : Fin 3) ∉ Shape.kept _ d.insertedWindowDims
    rw [hiw]; simp [Shape.kept]
  unfold ScatterDims.window
  rw [dif_neg hk]

/-- Update (b', n, c') lands at operand entry (b, c, v) exactly when b' = b and its index vector, read signed, is (c, v). -/
theorem tok_resultIdx?_eq_some_iff (huw : d.updateWindowDims = [0]) (hiw : d.insertedWindowDims = [1, 2])
    (hsd : d.scatterDimsToOperandDims = [1, 2]) (hivd : d.indexVectorDim = 2) (idx : IVec ⟨3, ![N, K, 2]⟩ w)
    (b' : Fin B) (n : Fin N) (c' : Fin K) (b : Fin B) (c : Fin C) (v : Fin T) :
    d.resultIdx? (ix3 b' n c') idx = some (ix3 b c v)
      ↔ b' = b ∧ (idx (ix3 n c' (0 : Fin 2))).toInt = (c.val : Int)
          ∧ (idx (ix3 n c' (1 : Fin 2))).toInt = (v.val : Int) := by
  rw [resultIdx?_eq_some_iff]
  constructor
  · intro h
    have h0 : d.start (ix3 b' n c') idx 0 + ((d.window (ix3 b' n c') 0 : Nat) : Int) = (b.val : Int) := h 0
    have h1 : d.start (ix3 b' n c') idx 1 + ((d.window (ix3 b' n c') 1 : Nat) : Int) = (c.val : Int) := h 1
    have h2 : d.start (ix3 b' n c') idx 2 + ((d.window (ix3 b' n c') 2 : Nat) : Int) = (v.val : Int) := h 2
    rw [tok_start0 d hsd, tok_window0 d huw hiw] at h0
    rw [tok_start1 d huw hsd hivd, tok_window1 d hiw] at h1
    rw [tok_start2 d huw hsd hivd, tok_window2 d hiw] at h2
    refine ⟨Fin.ext ?_, ?_, ?_⟩
    · omega
    · omega
    · omega
  · rintro ⟨h0, h1, h2⟩ a
    match a with
    | ⟨0, _⟩ =>
      show d.start (ix3 b' n c') idx 0 + ((d.window (ix3 b' n c') 0 : Nat) : Int) = (b.val : Int)
      rw [tok_start0 d hsd, tok_window0 d huw hiw, h0]
      omega
    | ⟨1, _⟩ =>
      show d.start (ix3 b' n c') idx 1 + ((d.window (ix3 b' n c') 1 : Nat) : Int) = (c.val : Int)
      rw [tok_start1 d huw hsd hivd, tok_window1 d hiw]
      omega
    | ⟨2, _⟩ =>
      show d.start (ix3 b' n c') idx 2 + ((d.window (ix3 b' n c') 2 : Nat) : Int) = (v.val : Int)
      rw [tok_start2 d huw hsd hivd, tok_window2 d hiw]
      omega

end Tok2

/-- The accumulating scatter of updates [B, N, C] into an operand [B, C, T] at index vectors [N, C, 2] whose component 0 is the
    position itself: entry (b, c, v) is the operand's plus the sum, over the rows n whose component 1 at position c — read signed,
    not clamped — is v, of update (b, n, c). -/
theorem scatterAdd_tok {B C T N w : Nat}
    (d : ScatterDims ⟨3, ![B, C, T]⟩ ⟨3, ![N, C, 2]⟩ ⟨3, ![B, N, C]⟩)
    (huw : d.updateWindowDims = [0]) (hiw : d.insertedWindowDims = [1, 2])
    (hsd : d.scatterDimsToOperandDims = [1, 2]) (hivd : d.indexVectorDim = 2)
    (x : (⟨3, ![B, C, T]⟩ : Shape).Idx → EReal) (idx : IVec ⟨3, ![N, C, 2]⟩ w)
    (upd : (⟨3, ![B, N, C]⟩ : Shape).Idx → EReal)
    (hpos : ∀ (n : Fin N) (c' : Fin C), (idx (ix3 n c' (0 : Fin 2))).toInt = (c'.val : Int))
    (b : Fin B) (c : Fin C) (v : Fin T) :
    Ideal.hostScatterAdd d x idx upd (ix3 b c v)
      = x (ix3 b c v) + ∑ n : Fin N, if (idx (ix3 n c (1 : Fin 2))).toInt = (v.val : Int) then upd (ix3 b n c) else 0 := by
  unfold Ideal.hostScatterAdd
  refine congrArg (x (ix3 b c v) + ·) ?_
  -- the filtered sum is a sum of `if`s over all updates, split by coordinates (b', n, c')
  rw [Finset.sum_filter, sum_idx3, Finset.sum_eq_single b]
  · refine Finset.sum_congr rfl (fun n _ => ?_)
    rw [Finset.sum_eq_single c]
    · by_cases hv : (idx (ix3 n c (1 : Fin 2))).toInt = (v.val : Int)
      · rw [if_pos hv, if_pos ((tok_resultIdx?_eq_some_iff d huw hiw hsd hivd idx b n c b c v).2 ⟨rfl, hpos n c, hv⟩)]
      · rw [if_neg hv, if_neg (fun h => hv ((tok_resultIdx?_eq_some_iff d huw hiw hsd hivd idx b n c b c v).1 h).2.2)]
    · intro c' _ hc'
      refine if_neg (fun h => hc' (Fin.ext ?_))
      have h1 := ((tok_resultIdx?_eq_some_iff d huw hiw hsd hivd idx b n c' b c v).1 h).2.1
      rw [hpos n c'] at h1
      omega
    · intro h
      exact absurd (Finset.mem_univ c) h
  · intro b' _ hb'
    refine Finset.sum_eq_zero (fun n _ => Finset.sum_eq_zero (fun c' _ => ?_))
    exact if_neg (fun h => hb' ((tok_resultIdx?_eq_some_iff d huw hiw hsd hivd idx b' n c' b c v).1 h).1)
  · intro h
    exact absurd (Finset.mem_univ b) h

/-- The same, stated over the operation's own head `Host.scatterAdd` at the extended reals, at any extents. -/
theorem hostScatterAdd_tok {B C T N w : Nat} {φ : FTy}
    (d : ScatterDims ⟨3, ![B, C, T]⟩ ⟨3, ![N, C, 2]⟩ ⟨3, ![B, N, C]⟩)
    (huw : d.updateWindowDims = [0]) (hiw : d.insertedWindowDims = [1, 2])
    (hsd : d.scatterDimsToOperandDims = [1, 2]) (hivd : d.indexVectorDim = 2)
    (x : FVec Ideal ⟨3, ![B, C, T]⟩ φ) (idx : IVec ⟨3, ![N, C, 2]⟩ w) (upd : FVec Ideal ⟨3, ![B, N, C]⟩ φ)
    (hpos : ∀ (n : Fin N) (c' : Fin C), (idx (ix3 n c' (0 : Fin 2))).toInt = (c'.val : Int))
    (b : Fin B) (c : Fin C) (v : Fin T) :
    Host.scatterAdd d x idx upd (ix3 b c v)
      = x (ix3 b c v) + ∑ n : Fin N, if (idx (ix3 n c (1 : Fin 2))).toInt = (v.val : Int) then upd (ix3 b n c) else 0 :=
  scatterAdd_tok d huw hiw hsd hivd x idx upd hpos b c v

/-- The wrap `select (x < 0) y x` of a word that is not negative keeps the word. -/
theorem select_slt_zero_of_nonneg (x y : BitVec 32) (h : 0 ≤ x.toInt) :
    Scalar.select (IntOp.cmpi .slt x 0#32) y x = x := by
  have hf : x.slt 0#32 = false := by
    simp only [BitVec.slt, BitVec.toInt_zero, decide_eq_false_iff_not, not_lt]
    exact h
  unfold Scalar.select IntOp.cmpi
  simp only [hf]
  rfl

end IndexOpsLib.ScatterTok

end
-- ==== Proof.RefScatter.lean ====
/-
  The reference's result: an accumulating scatter of the weights into a zero array, update (b, n, c) landing at
  (b, c, token of dataset row n at position c). With no negative token the index it scatters at is the token itself, an update
  whose token is past the vocabulary lands nowhere, and entry (b, c, v) is the total weight of the rows whose token at c is v.
-/
import proofs.«408879_j5617817224099_3_alg».proof.Proof.Gen.ReferenceIdeal.Read
import proofs.«408879_j5617817224099_3_alg».proof.Proof.Spec
import proofs.«408879_j5617817224099_3_alg».proof.Proof.RefWeights
import proofs.«408879_j5617817224099_3_alg».proof.Proof.LibScatterAdd
import proofs.«408879_j5617817224099_3_alg».proof.Proof.LibScatterTok
import Idealize.ShloMosaic.Lib.StableHlo.Predicate

noncomputable section

namespace Cert.ReferenceIdeal.RefValue

open Idealize.ShloMosaic Idealize.ShloMosaic.ValueIdx Idealize.ShloMosaic.TcCoe Idealize.SL.Sem Cert.ReferenceIdeal Cert.ReferenceIdeal.Gen Cert.ReferenceIdeal.Read

/-- Component 0 of the index vector of update (·, n, c') is the word of the position c'. -/
private theorem index_pos (ds : (⟨S2048x384, .i32⟩ : BufTy).Contents (Elt Ideal)) (n : Fin 2048) (c' : Fin 384) :
    val_main_v57 (F := Ideal) ds (ix3 n c' (0 : Fin 2)) = BitVec.ofNat 32 c'.val := by
  unfold val_main_v57
  refine (concatenate_pair_apply_left (t := S2048x384x2) (s₁ := S2048x384x1) (s₂ := S2048x384x1) _ _ _ _
    (ix3 n c' (0 : Fin 2)) rfl (ix3 n c' (0 : Fin 1)) ?_).trans ?_
  · intro b
    match b with
    | ⟨0, _⟩ => rfl
    | ⟨1, _⟩ => rfl
    | ⟨2, _⟩ => rfl
  · -- the position iota, wrapped: its word is never negative, so the wrap keeps it
    have h41 : val_main_v41 (F := Ideal) (idx_main_v55 (ix3 n c' (0 : Fin 1))) = BitVec.ofNat 32 c'.val := by
      rw [val_main_v41_apply, val_main_v40_apply, val_main_v39_apply]
    rw [val_main_v55_apply, val_main_v49_apply, val_main_v46_apply, val_main_v45_apply, val_main_c_8_apply, h41]
    refine IndexOpsLib.ScatterTok.select_slt_zero_of_nonneg _ _ ?_
    rw [StableHlo.Predicate.toInt_ofNat_small c'.val (by have := c'.isLt; omega)]
    omega

/-- Component 1 of the index vector of update (·, n, c') is the token of dataset row n at position c', when it is not negative. -/
private theorem index_tok (ds : (⟨S2048x384, .i32⟩ : BufTy).Contents (Elt Ideal))
    (hnn : ∀ (n : Fin 2048) (c : Fin 384), 0 ≤ (ds (ix2 n c)).toInt) (n : Fin 2048) (c' : Fin 384) :
    val_main_v57 (F := Ideal) ds (ix3 n c' (1 : Fin 2)) = ds (ix2 n c') := by
  unfold val_main_v57
  refine (concatenate_pair_apply_right (t := S2048x384x2) (s₁ := S2048x384x1) (s₂ := S2048x384x1) _ _ _ _
    (ix3 n c' (1 : Fin 2)) rfl rfl (ix3 n c' (0 : Fin 1)) ?_ ?_).trans ?_
  · intro b
    match b with
    | ⟨0, _⟩ => exact fun _ => rfl
    | ⟨1, _⟩ => exact fun _ => rfl
    | ⟨2, _⟩ => exact fun h => absurd rfl h
  · rfl
  · -- the token, wrapped: it is not negative, so the wrap keeps it
    have hi : idx_main_v56 (ix3 n c' (0 : Fin 1)) = ix2 n c' := by
      funext a
      match a with
      | ⟨0, _⟩ => rfl
      | ⟨1, _⟩ => rfl
    rw [val_main_v56_apply, val_main_v54_apply, val_main_v51_apply, val_main_v50_apply, val_main_c_10_apply, hi]
    exact IndexOpsLib.ScatterTok.select_slt_zero_of_nonneg _ _ (hnn n c')

/-- Update (b, n, c) is the weight of dataset row n for input row b. -/
private theorem update_apply (inp : (⟨S4x384, .i32⟩ : BufTy).Contents (Elt Ideal)) (ds : (⟨S2048x384, .i32⟩ : BufTy).Contents (Elt Ideal))
    (t : (⟨S4, .f32⟩ : BufTy).Contents (Elt Ideal)) (b : Fin 4) (n : Fin 2048) (c : Fin 384) :
    val_main_v58 (F := Ideal) inp ds t (ix3 b n c) = Cert.FlowSpec.wgt ds inp t b n := by
  have hi : idx_main_v43 (idx_main_v44 (idx_main_v58 (ix3 b n c))) = ix2 n b := by
    funext a
    match a with
    | ⟨0, _⟩ => rfl
    | ⟨1, _⟩ => rfl
  rw [val_main_v58_apply, val_main_v44_apply, val_main_v43_apply, hi]
  exact weights_apply inp ds t n b

/-- The reference's result array is the specification's, when no dataset token is negative. -/
theorem result_eq (inp : (⟨S4x384, .i32⟩ : BufTy).Contents (Elt Ideal)) (ds : (⟨S2048x384, .i32⟩ : BufTy).Contents (Elt Ideal))
    (t : (⟨S4, .f32⟩ : BufTy).Contents (Elt Ideal))
    (hnn : ∀ (n : Fin 2048) (c : Fin 384), 0 ≤ (ds (ix2 n c)).toInt) :
    val_main_v59 (F := Ideal) inp ds t = Cert.FlowSpec.result ds inp t := by
  funext i
  obtain ⟨b, c, v, rfl⟩ : ∃ (b : Fin 4) (c : Fin 384) (v : Fin 50265), i = ix3 b c v := ⟨i 0, i 1, i 2, eq_ix3 i⟩
  rw [Cert.FlowSpec.result_ix3]
  unfold val_main_v59
  refine (IndexOpsLib.ScatterTok.hostScatterAdd_tok _ rfl rfl rfl rfl _ _ _ (fun n c' => ?_) b c v).trans ?_
  · -- component 0 of an index vector is its position: 384 positions are far below 2³¹
    rw [index_pos ds n c']
    exact StableHlo.Predicate.toInt_ofNat_small c'.val (by have := c'.isLt; omega)
  · -- the operand is the zero array, and each update is a weight
    rw [val_main_v42_apply, val_main_cst_7_apply]
    refine (congrArg (· + _) Ideal.ofBits_zero_f32).trans ?_
    rw [zero_add]
    unfold Cert.FlowSpec.flow
    refine Finset.sum_congr rfl (fun n _ => ?_)
    rw [index_tok ds hnn n c, update_apply inp ds t b n c]

end Cert.ReferenceIdeal.RefValue

end
-- ==== Proof.PreDecode.lean ====
/-
  The precondition read back: it is the conjunction of "every time is finite" and "every dataset token is at least 0"
  (a signed comparison with 0, all of them and-ed together); the second conjunct gives each token's sign.
-/
import proofs.«408879_j5617817224099_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs

/-- The scalar shape has exactly one index. -/
private instance subsingleton_scalar_idx : Subsingleton S_.Idx := ⟨fun a b => funext fun d => d.elim0⟩

/-- Where the precondition holds, no dataset token is negative. -/
theorem tokens_nonneg [Cert.Pre_finite_inputs.Facts] (a0 : IVec S4x384 32) (a1 : IVec S2048x384 32) (a2 : FVec Ideal S4 .f32)
    (h : Cert.Pre_finite_inputs.fn (F := Ideal) a0 a1 a2 = (fun _ => 1#1)) (n : Fin 2048) (c : Fin 384) :
    0 ≤ (a1 (ix2 n c)).toInt := by
  -- the precondition at its one index: a conjunction of the two all-reductions
  have h0 := congrFun h ValueIdx.ix0
  dsimp only [Cert.Pre_finite_inputs.fn] at h0
  obtain ⟨_, h2⟩ := IntOp.andi_eq_one.1 h0
  -- the second conjunct: every entry of the compared mask is 1
  have h3 := Host.reduce_andi_all _ _ _ _ _ h2 (ix2 n c)
  -- at (n, c) the mask is the signed comparison of the token with 0
  have h4 : IntOp.cmpi .sge (a1 (ix2 n c)) 0#32 = 1#1 := h3
  have h5 := IntOp.cmpi_sge.1 h4
  simpa using h5

end Cert.Pre_finite_inputs.Decode

end
-- ==== Proof.lean ====
/-
  The certificate's five claims.

  The three frames: the two kernel programs by their generated frame certificates; the reference, a host program, by its
  generated run with the result dropped. The idealized kernel program is the printed one read over the extended reals: the
  ideal pass rewrote nothing, so there is nothing to preserve.

  The value claim. Both programs compute, for input row b, position c and vocabulary id v, the total softmax weight of the
  dataset rows whose token at position c is v (`FlowSpec.result`). The kernel program: a weights kernel (match counts, two
  logarithms, a stable softmax over the dataset rows) and a scatter kernel that compares each token with each id of a
  128-wide vocabulary tile and contracts the 0/1 comparison with the weights, tile by tile. The reference: the same weights,
  then an accumulating scatter at the token. A negative token is what separates them — the reference's indexing wraps it to
  the end of the vocabulary axis, the kernel's comparison matches nothing — and the precondition rules it out; a token past the
  vocabulary is dropped by both.
-/
import proofs.«408879_j5617817224099_3_alg».proof.Defs
import proofs.«408879_j5617817224099_3_alg».proof.Proof.Gen.Kernel
import proofs.«408879_j5617817224099_3_alg».proof.Proof.Gen.Kernel.Skeleton
import proofs.«408879_j5617817224099_3_alg».proof.Proof.Gen.Kernel.Loops
import proofs.«408879_j5617817224099_3_alg».proof.Proof.Gen.Kernel.Launch
import proofs.«408879_j5617817224099_3_alg».proof.Proof.Gen.Kernel.Points
import proofs.«408879_j5617817224099_3_alg».proof.Proof.Gen.Kernel.Frame
import proofs.«408879_j5617817224099_3_alg».proof.Proof.Gen.KernelIdeal
import proofs.«408879_j5617817224099_3_alg».proof.Proof.Gen.KernelIdeal.Skeleton
import proofs.«408879_j5617817224099_3_alg».proof.Proof.Gen.KernelIdeal.Loops
import proofs.«408879_j5617817224099_3_alg».proof.Proof.Gen.KernelIdeal.Launch
import proofs.«408879_j5617817224099_3_alg».proof.Proof.Gen.KernelIdeal.Points
import proofs.«408879_j5617817224099_3_alg».proof.Proof.Gen.KernelIdeal.Frame
import proofs.«408879_j5617817224099_3_alg».proof.Proof.Gen.ReferenceIdeal
import proofs.«408879_j5617817224099_3_alg».proof.Proof.Gen.ReferenceIdeal.Run
import proofs.«408879_j5617817224099_3_alg».proof.Proof.Gen.ReferenceIdeal.Read
import proofs.«408879_j5617817224099_3_alg».proof.Proof.Gen.Pre_finite_inputs
import Idealize.ShloMosaic.Adequacy
import Idealize.ShloMosaic.Init

import proofs.«408879_j5617817224099_3_alg».proof.Proof.Spec
import proofs.«408879_j5617817224099_3_alg».proof.Proof.KRun
import proofs.«408879_j5617817224099_3_alg».proof.Proof.KValue
import proofs.«408879_j5617817224099_3_alg».proof.Proof.RefScatter
import proofs.«408879_j5617817224099_3_alg».proof.Proof.PreDecode

noncomputable section

namespace Cert.Proof

open Idealize.ShloMosaic Idealize.ShloMosaic.TcCoe Idealize.ShloMosaic.ValueIdx Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, with no negative dataset token, both runs end with the result array at
    `FlowSpec.result` of the arguments: the kernel program's by its run and the value of its last boundary's contents, the
    reference's by its generated run, its last stage read as the same array. -/
theorem algebraic : Cert.algebraic_KernelIdeal_ReferenceIdeal := by
  intro m ρ m' ρ' hpre hagree
  refine ⟨fun c => Cert.FlowSpec.result (m ((c.tc : Thread Cert.KernelIdeal.nD Cert.KernelIdeal.τ).loc Cert.KernelIdeal.main_arg1))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.ResultValue.result_value m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    have hnn : ∀ (n : Fin 2048) (cc : Fin 384),
        0 ≤ ((m' ((c.tc : Thread Cert.ReferenceIdeal.nD Cert.ReferenceIdeal.τ).loc Cert.ReferenceIdeal.main_arg1)) (ix2 n cc)).toInt := by
      intro n cc
      rw [(hagree c).2.1]
      exact Cert.Pre_finite_inputs.Decode.tokens_nonneg _ _ _ (hpre c) n cc
    rw [Cert.ReferenceIdeal.Read.val_main_v59_eq, Cert.ReferenceIdeal.RefValue.result_eq _ _ _ hnn,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
